-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4 : Shape := ⟨2, ![1024, 4]⟩
abbrev S32000x1024 : Shape := ⟨2, ![32000, 1024]⟩
abbrev S512x1024x3 : Shape := ⟨3, ![512, 1024, 3]⟩
abbrev S512 : Shape := ⟨1, ![512]⟩
abbrev S32000x512 : Shape := ⟨2, ![32000, 512]⟩
abbrev S32000 : Shape := ⟨1, ![32000]⟩
abbrev S_ : Shape := ⟨0, ![]⟩

class Facts : Prop where
  bcast_S_S32000x1024 : S_.BroadcastsInDim S32000x1024 (![] : Fin 0 → Fin S32000x1024.rank)
  reducesTo_S32000x1024_S_d0_1 : S32000x1024.ReducesTo [0, 1] S_
  h_S_ : 0 < S_.numel
  bcast_S_S512x1024x3 : S_.BroadcastsInDim S512x1024x3 (![] : Fin 0 → Fin S512x1024x3.rank)
  reducesTo_S512x1024x3_S_d0_1_2 : S512x1024x3.ReducesTo [0, 1, 2] S_
  bcast_S_S512 : S_.BroadcastsInDim S512 (![] : Fin 0 → Fin S512.rank)
  reducesTo_S512_S_d0 : S512.ReducesTo [0] S_
  bcast_S_S32000x512 : S_.BroadcastsInDim S32000x512 (![] : Fin 0 → Fin S32000x512.rank)
  reducesTo_S32000x512_S_d0_1 : S32000x512.ReducesTo [0, 1] S_
  bcast_S_S32000 : S_.BroadcastsInDim S32000 (![] : Fin 0 → Fin S32000.rank)
  reducesTo_S32000_S_d0 : S32000.ReducesTo [0] S_

variable [Facts]

def fn_part1 {F : FTy → Type} [FloatOps F] (main_arg5 : FVec F S32000 .f32) (main_v13 : IVec S_ 1) (main_v16 : IVec S32000x512 1) : IVec S_ 1 :=
  let main_c_5 : IVec S_ 1 := constantI S_ 1 1#1
  let main_v17 : IVec S_ 1 := (fun x v => Host.reduce IntOp.andi x v reducesTo_S32000x512_S_d0_1 h_S_) main_v16 main_c_5
  let main_v18 : IVec S_ 1 := andi main_v13 main_v17
  let main_v19 : FVec F S32000 .f32 := Host.absf main_arg5
  let main_cst_6 : FVec F S_ .f32 := constant S_ .f32 0x7F800000#32
  let main_v20 : FVec F S32000 .f32 := broadcastInDim S32000 ![] bcast_S_S32000 main_cst_6
  let main_v21 : IVec S32000 1 := cmpf .olt main_v19 main_v20
  let main_c_7 : IVec S_ 1 := constantI S_ 1 1#1
  let main_v22 : IVec S_ 1 := (fun x v => Host.reduce IntOp.andi x v reducesTo_S32000_S_d0 h_S_) main_v21 main_c_7
  let main_v23 : IVec S_ 1 := andi main_v18 main_v22
  main_v23

def fn {F : FTy → Type} [FloatOps F] (main_arg0 : IVec S1024x4 32) (main_arg1 : FVec F S32000x1024 .f32) (main_arg2 : FVec F S512x1024x3 .f32) (main_arg3 : FVec F S512 .f32) (main_arg4 : FVec F S32000x512 .f32) (main_arg5 : FVec F S32000 .f32) : IVec S_ 1 :=
  let main_v0 : FVec F S32000x1024 .f32 := Host.absf main_arg1
  let main_cst : FVec F S_ .f32 := constant S_ .f32 0x7F800000#32
  let main_v1 : FVec F S32000x1024 .f32 := broadcastInDim S32000x1024 ![] bcast_S_S32000x1024 main_cst
  let main_v2 : IVec S32000x1024 1 := cmpf .olt main_v0 main_v1
  let main_c : IVec S_ 1 := constantI S_ 1 1#1
  let main_v3 : IVec S_ 1 := (fun x v => Host.reduce IntOp.andi x v reducesTo_S32000x1024_S_d0_1 h_S_) main_v2 main_c
  let main_v4 : FVec F S512x1024x3 .f32 := Host.absf main_arg2
  let main_cst_0 : FVec F S_ .f32 := constant S_ .f32 0x7F800000#32
  let main_v5 : FVec F S512x1024x3 .f32 := broadcastInDim S512x1024x3 ![] bcast_S_S512x1024x3 main_cst_0
  let main_v6 : IVec S512x1024x3 1 := cmpf .olt main_v4 main_v5
  let main_c_1 : IVec S_ 1 := constantI S_ 1 1#1
  let main_v7 : IVec S_ 1 := (fun x v => Host.reduce IntOp.andi x v reducesTo_S512x1024x3_S_d0_1_2 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S32000x512 .f32 := Host.absf main_arg4
  let main_cst_4 : FVec F S_ .f32 := constant S_ .f32 0x7F800000#32
  let main_v15 : FVec F S32000x512 .f32 := broadcastInDim S32000x512 ![] bcast_S_S32000x512 main_cst_4
  let main_v16 : IVec S32000x512 1 := cmpf .olt main_v14 main_v15
  fn_part1 (F := F) main_arg5 main_v13 main_v16
-- ==== Kernel.lean ====
abbrev S1024x4 : Shape := ⟨2, ![1024, 4]⟩
abbrev S32000x1024 : Shape := ⟨2, ![32000, 1024]⟩
abbrev S512x1024x3 : Shape := ⟨3, ![512, 1024, 3]⟩
abbrev S512 : Shape := ⟨1, ![512]⟩
abbrev S32000x512 : Shape := ⟨2, ![32000, 512]⟩
abbrev S32000 : Shape := ⟨1, ![32000]⟩
abbrev S_ : Shape := ⟨0, ![]⟩
abbrev S2x4 : Shape := ⟨2, ![2, 4]⟩
abbrev S1026x4 : Shape := ⟨2, ![1026, 4]⟩
abbrev S1026x4x1 : Shape := ⟨3, ![1026, 4, 1]⟩
abbrev S1026x4x1024 : Shape := ⟨3, ![1026, 4, 1024]⟩
abbrev S1024x4x1024 : Shape := ⟨3, ![1024, 4, 1024]⟩
abbrev S3x1024x512 : Shape := ⟨3, ![3, 1024, 512]⟩
abbrev S1x512 : Shape := ⟨2, ![1, 512]⟩
abbrev S1024x4x512 : Shape := ⟨3, ![1024, 4, 512]⟩
abbrev S128x4x1024 : Shape := ⟨3, ![128, 4, 1024]⟩
abbrev S128x4x512 : Shape := ⟨3, ![128, 4, 512]⟩
abbrev S512x1024 : Shape := ⟨2, ![512, 1024]⟩
abbrev S1x1024x512 : Shape := ⟨3, ![1, 1024, 512]⟩
abbrev S1024x512 : Shape := ⟨2, ![1024, 512]⟩
abbrev S512x512 : Shape := ⟨2, ![512, 512]⟩
abbrev S1x1x512 : Shape := ⟨3, ![1, 1, 512]⟩
abbrev S4096x512 : Shape := ⟨2, ![4096, 512]⟩
abbrev S1x32000 : Shape := ⟨2, ![1, 32000]⟩
abbrev S4096x32000 : Shape := ⟨2, ![4096, 32000]⟩
abbrev S3200x512 : Shape := ⟨2, ![3200, 512]⟩
abbrev S1x3200 : Shape := ⟨2, ![1, 3200]⟩
abbrev S512x3200 : Shape := ⟨2, ![512, 3200]⟩
abbrev S1024x4x32000 : Shape := ⟨3, ![1024, 4, 32000]⟩

abbrev nBuf : Space → Nat
  | .hbm => 31
  | .vmem => 18
  | .smem => 0
  | _ => 0

abbrev bufTy : (tb : Table) → Fin (tcTables nBuf tb) → BufTy
  | .hbm, ⟨0, _⟩ => ⟨S1024x4, .i32⟩
  | .hbm, ⟨1, _⟩ => ⟨S32000x1024, .f32⟩
  | .hbm, ⟨2, _⟩ => ⟨S512x1024x3, .f32⟩
  | .hbm, ⟨3, _⟩ => ⟨S512, .f32⟩
  | .hbm, ⟨4, _⟩ => ⟨S32000x512, .f32⟩
  | .hbm, ⟨5, _⟩ => ⟨S32000, .f32⟩
  | .hbm, ⟨6, _⟩ => ⟨S_, .i32⟩
  | .hbm, ⟨7, _⟩ => ⟨S2x4, .i32⟩
  | .hbm, ⟨8, _⟩ => ⟨S1026x4, .i32⟩
  | .hbm, ⟨9, _⟩ => ⟨S_, .i32⟩
  | .hbm, ⟨10, _⟩ => ⟨S1026x4, .i32⟩
  | .hbm, ⟨11, _⟩ => ⟨S1026x4, .i1⟩
  | .hbm, ⟨12, _⟩ => ⟨S_, .i32⟩
  | .hbm, ⟨13, _⟩ => ⟨S1026x4, .i32⟩
  | .hbm, ⟨14, _⟩ => ⟨S1026x4, .i32⟩
  | .hbm, ⟨15, _⟩ => ⟨S1026x4, .i32⟩
  | .hbm, ⟨16, _⟩ => ⟨S1026x4x1, .i32⟩
  | .hbm, ⟨17, _⟩ => ⟨S1026x4x1024, .f32⟩
  | .hbm, ⟨18, _⟩ => ⟨S1026x4x1024, .bf16⟩
  | .hbm, ⟨19, _⟩ => ⟨S1024x4x1024, .bf16⟩
  | .hbm, ⟨20, _⟩ => ⟨S1024x4x1024, .bf16⟩
  | .hbm, ⟨21, _⟩ => ⟨S1024x4x1024, .bf16⟩
  | .hbm, ⟨22, _⟩ => ⟨S3x1024x512, .f32⟩
  | .hbm, ⟨23, _⟩ => ⟨S3x1024x512, .bf16⟩
  | .hbm, ⟨24, _⟩ => ⟨S1x512, .f32⟩
  | .hbm, ⟨25, _⟩ => ⟨S1024x4x512, .bf16⟩
  | .hbm, ⟨26, _⟩ => ⟨S4096x512, .bf16⟩
  | .hbm, ⟨27, _⟩ => ⟨S32000x512, .bf16⟩
  | .hbm, ⟨28, _⟩ => ⟨S1x32000, .f32⟩
  | .hbm, ⟨29, _⟩ => ⟨S4096x32000, .f32⟩
  | .hbm, ⟨30, _⟩ => ⟨S1024x4x32000, .f32⟩
  | .local _ .vmem, ⟨0, _⟩ => ⟨S128x4x1024, .bf16⟩
  | .local _ .vmem, ⟨1, _⟩ => ⟨S128x4x1024, .bf16⟩
  | .local _ .vmem, ⟨2, _⟩ => ⟨S128x4x1024, .bf16⟩
  | .local _ .vmem, ⟨3, _⟩ => ⟨S128x4x1024, .bf16⟩
  | .local _ .vmem, ⟨4, _⟩ => ⟨S128x4x1024, .bf16⟩
  | .local _ .vmem, ⟨5, _⟩ => ⟨S128x4x1024, .bf16⟩
  | .local _ .vmem, ⟨6, _⟩ => ⟨S3x1024x512, .bf16⟩
  | .local _ .vmem, ⟨7, _⟩ => ⟨S1x512, .f32⟩
  | .local _ .vmem, ⟨8, _⟩ => ⟨S128x4x512, .bf16⟩
  | .local _ .vmem, ⟨9, _⟩ => ⟨S128x4x512, .bf16⟩
  | .local _ .vmem, ⟨10, _⟩ => ⟨S512x512, .bf16⟩
  | .local _ .vmem, ⟨11, _⟩ => ⟨S512x512, .bf16⟩
  | .local _ .vmem, ⟨12, _⟩ => ⟨S3200x512, .bf16⟩
  | .local _ .vmem, ⟨13, _⟩ => ⟨S3200x512, .bf16⟩
  | .local _ .vmem, ⟨14, _⟩ => ⟨S1x3200, .f32⟩
  | .local _ .vmem, ⟨15, _⟩ => ⟨S1x3200, .f32⟩
  | .local _ .vmem, ⟨16, _⟩ => ⟨S512x3200, .f32⟩
  | .local _ .vmem, ⟨17, _⟩ => ⟨S512x3200, .f32⟩
  | _, _ => ⟨S1024x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x4x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![10, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S3200x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x3200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x3200 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bcast_S_S2x4 : S_.BroadcastsInDim S2x4 (![] : Fin 0 → Fin S2x4.rank)
  concatenates_S2x4_S1024x4_S1026x4_d0 : Shape.Concatenates [S2x4, S1024x4] S1026x4 0
  bcast_S_S1026x4 : S_.BroadcastsInDim S1026x4 (![] : Fin 0 → Fin S1026x4.rank)
  bcast_S1026x4_S1026x4x1_0_1 : S1026x4.BroadcastsInDim S1026x4x1 (![0, 1] : Fin 2 → Fin S1026x4x1.rank)
  bitsLt_bf16_f32 : FTy.bits .bf16 < FTy.bits .f32
  slices_S1026x4x1024_S1024x4x1024_0_0_0 : S1026x4x1024.Slices ![0, 0, 0] S1024x4x1024
  slices_S1026x4x1024_S1024x4x1024_1_0_0 : S1026x4x1024.Slices ![1, 0, 0] S1024x4x1024
  slices_S1026x4x1024_S1024x4x1024_2_0_0 : S1026x4x1024.Slices ![2, 0, 0] S1024x4x1024
  transposes_S512x1024x3_S3x1024x512_2_1_0 : S512x1024x3.Transposes [2, 1, 0] S3x1024x512
  shapeCasts_S512_S1x512 : S512.ShapeCasts S1x512
  inb_S128x4x1024_S128x4x1024_0_0_0 : ∀ a, (![0, 0, 0] : Fin 3 → Nat) a + S128x4x1024.size a ≤ S128x4x1024.size a
  h_S128x4x1024 : 0 < S128x4x1024.numel
  shapeCasts_S128x4x1024_S128x4x1024 : S128x4x1024.ShapeCasts S128x4x1024
  shapeCasts_S128x4x1024_S512x1024 : S128x4x1024.ShapeCasts S512x1024
  inb_S3x1024x512_S1x1024x512_0_0_0 : ∀ a, (![0, 0, 0] : Fin 3 → Nat) a + S1x1024x512.size a ≤ S3x1024x512.size a
  h_S1x1024x512 : 0 < S1x1024x512.numel
  shapeCasts_S1x1024x512_S1024x512 : S1x1024x512.ShapeCasts S1024x512
  inb_S3x1024x512_S1x1024x512_1_0_0 : ∀ a, (![1, 0, 0] : Fin 3 → Nat) a + S1x1024x512.size a ≤ S3x1024x512.size a
  inb_S3x1024x512_S1x1024x512_2_0_0 : ∀ a, (![2, 0, 0] : Fin 3 → Nat) a + S1x1024x512.size a ≤ S3x1024x512.size a
  shapeCasts_S512x512_S128x4x512 : S512x512.ShapeCasts S128x4x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S1x1x512 : S1x512.ShapeCasts S1x1x512
  broadcasts_S1x1x512_S128x4x512 : S1x1x512.Broadcasts S128x4x512
  inb_S128x4x512_S128x4x512_0_0_0 : ∀ a, (![0, 0, 0] : Fin 3 → Nat) a + S128x4x512.size a ≤ S128x4x512.size a
  h_S128x4x512 : 0 < S128x4x512.numel
  packedbf16_S128x4x512_S128x4x512_0_0_0 : (Rect.unit (s := S128x4x512) ![0, 0, 0] S128x4x512.size inb_S128x4x512_S128x4x512_0_0_0).PackedRows (EltTy.packing .bf16)
  shapeCasts_S1024x4x512_S4096x512 : S1024x4x512.ShapeCasts S4096x512
  shapeCasts_S32000_S1x32000 : S32000.ShapeCasts S1x32000
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S3200x512_S3200x512_0_0 : ∀ a, (![0, 0] : Fin 2 → Nat) a + S3200x512.size a ≤ S3200x512.size a
  h_S3200x512 : 0 < S3200x512.numel
  shapeCasts_S3200x512_S3200x512 : S3200x512.ShapeCasts S3200x512
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  broadcasts_S1x3200_S512x3200 : S1x3200.Broadcasts S512x3200
  inb_S512x3200_S512x3200_0_0 : ∀ a, (![0, 0] : Fin 2 → Nat) a + S512x3200.size a ≤ S512x3200.size a
  h_S512x3200 : 0 < S512x3200.numel
  shapeCasts_S4096x32000_S1024x4x32000 : S4096x32000.ShapeCasts S1024x4x32000
  gather_S32000x1024_S1026x4x1_S1026x4x1024_2_0_n_n_0_2_11024_wf : GatherDims.WF S32000x1024 S1026x4x1 S1026x4x1024 [2] [0] [] [0] [] 2 ![1, 1024]
  dot_S512x1024_S1024x512_S512x512_1_0_0_1_n_n_wf : DotDims.WF S512x1024 S1024x512 S512x512 [1] [0] [0] [1] [] []
  dot_S512x512_S3200x512_S512x3200_1_1_0_0_n_n_wf : DotDims.WF S512x512 S3200x512 S512x3200 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4x1024.size a ≤ S1024x4x1024.size a
  hwx0_0 : ∀ i : grid0.Coords, EltTy.bits .bf16 = 32 ∨ (Rect.block (s := S1024x4x1024) S128x4x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4x1024.size a ≤ S1024x4x1024.size a
  hwx0_1 : ∀ i : grid0.Coords, EltTy.bits .bf16 = 32 ∨ (Rect.block (s := S1024x4x1024) S128x4x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4x1024.size a ≤ S1024x4x1024.size a
  hwx0_2 : ∀ i : grid0.Coords, EltTy.bits .bf16 = 32 ∨ (Rect.block (s := S1024x4x1024) S128x4x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x1024x512.size a ≤ S3x1024x512.size a
  hwx0_3 : ∀ i : grid0.Coords, EltTy.bits .bf16 = 32 ∨ (Rect.block (s := S3x1024x512) S3x1024x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4x512.size a ≤ S1024x4x512.size a
  hwx0_5 : ∀ i : grid0.Coords, EltTy.bits .bf16 = 32 ∨ (Rect.block (s := S1024x4x512) S128x4x512.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x512.size a
  hwx1_0 : ∀ i : grid1.Coords, EltTy.bits .bf16 = 32 ∨ (Rect.block (s := S4096x512) S512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x512.size a ≤ S32000x512.size a
  hwx1_1 : ∀ i : grid1.Coords, EltTy.bits .bf16 = 32 ∨ (Rect.block (s := S32000x512) S3200x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x3200.size a ≤ S1x32000.size a
  hwx1_2 : ∀ i : grid1.Coords, EltTy.bits .f32 = 32 ∨ (Rect.block (s := S1x32000) S1x3200.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x3200.size a ≤ S4096x32000.size a
  hwx1_3 : ∀ i : grid1.Coords, EltTy.bits .f32 = 32 ∨ (Rect.block (s := S4096x32000) S512x3200.size (cc1_transform_3 i) (hinb1_3 i)).WholeWords (EltTy.packing .f32)

variable [Facts₀]

def gather_S32000x1024_S1026x4x1_S1026x4x1024_2_0_n_n_0_2_11024 : GatherDims S32000x1024 S1026x4x1 S1026x4x1024 where
  offsetDims := [2]
  collapsedSliceDims := [0]
  operandBatchingDims := []
  startIndicesBatchingDims := []
  startIndexMap := [0]
  indexVectorDim := 2
  sliceSizes := ![1, 1024]
  wf := gather_S32000x1024_S1026x4x1_S1026x4x1024_2_0_n_n_0_2_11024_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S3200x512_S512x3200_1_1_0_0_n_n : DotDims S512x512 S3200x512 S512x3200 where
  lhsContracting := [1]
  rhsContracting := [1]
  lhsNonContracting := [0]
  rhsNonContracting := [0]
  lhsBatch := []
  rhsBatch := []
  wf := dot_S512x512_S3200x512_S512x3200_1_1_0_0_n_n_wf

abbrev win0_0 : Pipeline.Window sig grid0 :=
  Pipeline.Window.ofSpec (Memref.whole main_v10) S128x4x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S128x4x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S128x4x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S3x1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S128x4x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v17) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S3200x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x3200.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S512x3200.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1024x4 : Shape := ⟨2, ![1024, 4]⟩
abbrev S32000x1024 : Shape := ⟨2, ![32000, 1024]⟩
abbrev S512x1024x3 : Shape := ⟨3, ![512, 1024, 3]⟩
abbrev S512 : Shape := ⟨1, ![512]⟩
abbrev S32000x512 : Shape := ⟨2, ![32000, 512]⟩
abbrev S32000 : Shape := ⟨1, ![32000]⟩
abbrev S_ : Shape := ⟨0, ![]⟩
abbrev S2x4 : Shape := ⟨2, ![2, 4]⟩
abbrev S1026x4 : Shape := ⟨2, ![1026, 4]⟩
abbrev S1026x4x1 : Shape := ⟨3, ![1026, 4, 1]⟩
abbrev S1026x4x1024 : Shape := ⟨3, ![1026, 4, 1024]⟩
abbrev S1024x4x1024 : Shape := ⟨3, ![1024, 4, 1024]⟩
abbrev S512x1024x1 : Shape := ⟨3, ![512, 1024, 1]⟩
abbrev S512x1024 : Shape := ⟨2, ![512, 1024]⟩
abbrev S1024x4x512 : Shape := ⟨3, ![1024, 4, 512]⟩
abbrev S1x1x512 : Shape := ⟨3, ![1, 1, 512]⟩
abbrev S1024x4x32000 : Shape := ⟨3, ![1024, 4, 32000]⟩
abbrev S1x1x32000 : Shape := ⟨3, ![1, 1, 32000]⟩

abbrev nBuf : Space → Nat
  | .hbm => 42
  | .vmem => 0
  | .smem => 0
  | _ => 0

abbrev bufTy : (tb : Table) → Fin (tcTables nBuf tb) → BufTy
  | .hbm, ⟨0, _⟩ => ⟨S1024x4, .i32⟩
  | .hbm, ⟨1, _⟩ => ⟨S32000x1024, .f32⟩
  | .hbm, ⟨2, _⟩ => ⟨S512x1024x3, .f32⟩
  | .hbm, ⟨3, _⟩ => ⟨S512, .f32⟩
  | .hbm, ⟨4, _⟩ => ⟨S32000x512, .f32⟩
  | .hbm, ⟨5, _⟩ => ⟨S32000, .f32⟩
  | .hbm, ⟨6, _⟩ => ⟨S_, .i32⟩
  | .hbm, ⟨7, _⟩ => ⟨S2x4, .i32⟩
  | .hbm, ⟨8, _⟩ => ⟨S1026x4, .i32⟩
  | .hbm, ⟨9, _⟩ => ⟨S_, .i32⟩
  | .hbm, ⟨10, _⟩ => ⟨S1026x4, .i32⟩
  | .hbm, ⟨11, _⟩ => ⟨S1026x4, .i1⟩
  | .hbm, ⟨12, _⟩ => ⟨S_, .i32⟩
  | .hbm, ⟨13, _⟩ => ⟨S1026x4, .i32⟩
  | .hbm, ⟨14, _⟩ => ⟨S1026x4, .i32⟩
  | .hbm, ⟨15, _⟩ => ⟨S1026x4, .i32⟩
  | .hbm, ⟨16, _⟩ => ⟨S1026x4x1, .i32⟩
  | .hbm, ⟨17, _⟩ => ⟨S1026x4x1024, .f32⟩
  | .hbm, ⟨18, _⟩ => ⟨S1024x4x1024, .f32⟩
  | .hbm, ⟨19, _⟩ => ⟨S512x1024x1, .f32⟩
  | .hbm, ⟨20, _⟩ => ⟨S512x1024, .f32⟩
  | .hbm, ⟨21, _⟩ => ⟨S1024x4x512, .f32⟩
  | .hbm, ⟨22, _⟩ => ⟨S1x1x512, .f32⟩
  | .hbm, ⟨23, _⟩ => ⟨S1024x4x512, .f32⟩
  | .hbm, ⟨24, _⟩ => ⟨S1024x4x512, .f32⟩
  | .hbm, ⟨25, _⟩ => ⟨S1024x4x1024, .f32⟩
  | .hbm, ⟨26, _⟩ => ⟨S512x1024x1, .f32⟩
  | .hbm, ⟨27, _⟩ => ⟨S512x1024, .f32⟩
  | .hbm, ⟨28, _⟩ => ⟨S1024x4x512, .f32⟩
  | .hbm, ⟨29, _⟩ => ⟨S1024x4x512, .f32⟩
  | .hbm, ⟨30, _⟩ => ⟨S1024x4x1024, .f32⟩
  | .hbm, ⟨31, _⟩ => ⟨S512x1024x1, .f32⟩
  | .hbm, ⟨32, _⟩ => ⟨S512x1024, .f32⟩
  | .hbm, ⟨33, _⟩ => ⟨S1024x4x512, .f32⟩
  | .hbm, ⟨34, _⟩ => ⟨S1024x4x512, .f32⟩
  | .hbm, ⟨35, _⟩ => ⟨S_, .f32⟩
  | .hbm, ⟨36, _⟩ => ⟨S1024x4x512, .f32⟩
  | .hbm, ⟨37, _⟩ => ⟨S1024x4x512, .f32⟩
  | .hbm, ⟨38, _⟩ => ⟨S1024x4x32000, .f32⟩
  | .hbm, ⟨39, _⟩ => ⟨S1x1x32000, .f32⟩
  | .hbm, ⟨40, _⟩ => ⟨S1024x4x32000, .f32⟩
  | .hbm, ⟨41, _⟩ => ⟨S1024x4x32000, .f32⟩
  | _, _ => ⟨S1024x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call0_cst : Ref sig .tc := ⟨.hbm, 35, rfl⟩
abbrev main_call0_v0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  bcast_S_S2x4 : S_.BroadcastsInDim S2x4 (![] : Fin 0 → Fin S2x4.rank)
  concatenates_S2x4_S1024x4_S1026x4_d0 : Shape.Concatenates [S2x4, S1024x4] S1026x4 0
  bcast_S_S1026x4 : S_.BroadcastsInDim S1026x4 (![] : Fin 0 → Fin S1026x4.rank)
  bcast_S1026x4_S1026x4x1_0_1 : S1026x4.BroadcastsInDim S1026x4x1 (![0, 1] : Fin 2 → Fin S1026x4x1.rank)
  slices_S1026x4x1024_S1024x4x1024_0_0_0 : S1026x4x1024.Slices ![0, 0, 0] S1024x4x1024
  slices_S512x1024x3_S512x1024x1_0_0_0 : S512x1024x3.Slices ![0, 0, 0] S512x1024x1
  shapeCasts_S512x1024x1_S512x1024 : S512x1024x1.ShapeCasts S512x1024
  bcast_S512_S1x1x512_2 : S512.BroadcastsInDim S1x1x512 (![2] : Fin 1 → Fin S1x1x512.rank)
  bcast_S1x1x512_S1024x4x512_0_1_2 : S1x1x512.BroadcastsInDim S1024x4x512 (![0, 1, 2] : Fin 3 → Fin S1024x4x512.rank)
  slices_S1026x4x1024_S1024x4x1024_1_0_0 : S1026x4x1024.Slices ![1, 0, 0] S1024x4x1024
  slices_S512x1024x3_S512x1024x1_0_0_1 : S512x1024x3.Slices ![0, 0, 1] S512x1024x1
  slices_S1026x4x1024_S1024x4x1024_2_0_0 : S1026x4x1024.Slices ![2, 0, 0] S1024x4x1024
  slices_S512x1024x3_S512x1024x1_0_0_2 : S512x1024x3.Slices ![0, 0, 2] S512x1024x1
  bcast_S_S1024x4x512 : S_.BroadcastsInDim S1024x4x512 (![] : Fin 0 → Fin S1024x4x512.rank)
  bcast_S32000_S1x1x32000_2 : S32000.BroadcastsInDim S1x1x32000 (![2] : Fin 1 → Fin S1x1x32000.rank)
  bcast_S1x1x32000_S1024x4x32000_0_1_2 : S1x1x32000.BroadcastsInDim S1024x4x32000 (![0, 1, 2] : Fin 3 → Fin S1024x4x32000.rank)
  gather_S32000x1024_S1026x4x1_S1026x4x1024_2_0_n_n_0_2_11024_wf : GatherDims.WF S32000x1024 S1026x4x1 S1026x4x1024 [2] [0] [] [0] [] 2 ![1, 1024]
  dot_S1024x4x1024_S512x1024_S1024x4x512_2_1_01_0_n_n_wf : DotDims.WF S1024x4x1024 S512x1024 S1024x4x512 [2] [1] [0, 1] [0] [] []
  dot_S1024x4x512_S32000x512_S1024x4x32000_2_1_01_0_n_n_wf : DotDims.WF S1024x4x512 S32000x512 S1024x4x32000 [2] [1] [0, 1] [0] [] []

variable [Facts₀]

def gather_S32000x1024_S1026x4x1_S1026x4x1024_2_0_n_n_0_2_11024 : GatherDims S32000x1024 S1026x4x1 S1026x4x1024 where
  offsetDims := [2]
  collapsedSliceDims := [0]
  operandBatchingDims := []
  startIndicesBatchingDims := []
  startIndexMap := [0]
  indexVectorDim := 2
  sliceSizes := ![1, 1024]
  wf := gather_S32000x1024_S1026x4x1_S1026x4x1024_2_0_n_n_0_2_11024_wf
def dot_S1024x4x1024_S512x1024_S1024x4x512_2_1_01_0_n_n : DotDims S1024x4x1024 S512x1024 S1024x4x512 where
  lhsContracting := [2]
  rhsContracting := [1]
  lhsNonContracting := [0, 1]
  rhsNonContracting := [0]
  lhsBatch := []
  rhsBatch := []
  wf := dot_S1024x4x1024_S512x1024_S1024x4x512_2_1_01_0_n_n_wf
def dot_S1024x4x512_S32000x512_S1024x4x32000_2_1_01_0_n_n : DotDims S1024x4x512 S32000x512 S1024x4x32000 where
  lhsContracting := [2]
  rhsContracting := [1]
  lhsNonContracting := [0, 1]
  rhsNonContracting := [0]
  lhsBatch := []
  rhsBatch := []
  wf := dot_S1024x4x512_S32000x512_S1024x4x32000_2_1_01_0_n_n_wf

class Facts : Prop extends Facts₀ where

variable [Facts]
-- ==== Proof.ConvBlock.lean ====
/-
  One block of the convolution. A grid point of the first kernel holds three 128 × 4 × 1024 tiles `x0 x1 x2` of the
  embedded sequence (the same 128 positions seen at shifts 0, 1, 2), the three 1024 × 512 taps `w0 w1 w2` (each kept
  as a 1 × 1024 × 512 slab) and the 512 biases `bv` (a 1 × 512 row). It flattens each tile to 512 rows (row 4p + b for
  position p and batch entry b), multiplies it by its tap into a zero accumulator, adds the three products, unflattens,
  adds the bias along the last axis and clips below at zero. Over the extended reals the entry (p, b, h) of the stored
  tile is `max (((∑ₑ x0[p,b,e]·w0[0,e,h] + ∑ₑ x1[p,b,e]·w1[0,e,h]) + ∑ₑ x2[p,b,e]·w2[0,e,h]) + bv[0,h]) 0`.
-/
import proofs.«144658_j78769700209271_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.ConvBlock

open Cert.KernelIdeal Cert.KernelIdeal.Gen Idealize.ShloMosaic Idealize.ShloMosaic.ValueIdx

/-- Position p and batch entry b sit at row 4p + b of the flattened tile. -/
abbrev row (p : Fin 128) (b : Fin 4) : Fin 512 := ⟨4 * p.val + b.val, by have := p.isLt; have := b.isLt; omega⟩

/-! ## Where the contraction reads its two operands -/

theorem lhs_row (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhs_sum (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
theorem rhs_sum (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
theorem rhs_col (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- A flattened tile times a tap into a zero accumulator, at entry (r, h): the sum over the 1024 embedding coordinates. -/
theorem product_entry (a : FVec Ideal S512x1024 .bf16) (w : FVec Ideal S1024x512 .bf16) (r : Fin 512) (h : Fin 512) :
    matmul dot_S512x1024_S1024x512_S512x512_1_0_0_1_n_n none a w (constant S512x512 .f32 0x00000000#32) (ix2 r h)
      = ∑ k : Fin 1024, a (ix2 r k) * w (ix2 k h) := by
  simp only [matmul]
  rw [Ideal.matmul_constant_zero_apply, ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 r h) ((contrEquiv1 dot_S512x1024_S1024x512_S512x512_1_0_0_1_n_n 1024 rfl rfl).symm k) = ix2 r k := funext fun a => Fin.ext (by
    match a with
    | ⟨0, _⟩ => exact lhs_row _ _
    | ⟨1, _⟩ => exact (lhs_sum _ _).trans hk)
  have er : dot_S512x1024_S1024x512_S512x512_1_0_0_1_n_n.rhsIdx (ix2 r h) ((contrEquiv1 dot_S512x1024_S1024x512_S512x512_1_0_0_1_n_n 1024 rfl rfl).symm k) = ix2 k h := funext fun a => Fin.ext (by
    match a with
    | ⟨0, _⟩ => exact (rhs_sum _ _).trans hk
    | ⟨1, _⟩ => exact rhs_col _ _)
  rw [el, er]

/-! ## The reshapes, at an entry -/

/-- The flattened tile at (4p + b, e) is the tile at (p, b, e). -/
theorem flatten_entry (x : FVec Ideal S128x4x1024 .bf16) (p : Fin 128) (b : Fin 4) (e : Fin 1024) :
    shapeCast S512x1024 x shapeCasts_S128x4x1024_S512x1024 (ix2 (row p b) e) = x (ix3 p b e) :=
  shapeCast_apply x shapeCasts_S128x4x1024_S512x1024 (ix2 (row p b) e) (ix3 p b e)
    (by rewrite [Shape.rowMajor_val_three, Shape.rowMajor_val_two]
        show (p.val * 4 + b.val) * 1024 + e.val = (4 * p.val + b.val) * 1024 + e.val; omega)

/-- A tap without its unit axis at (e, h) is the slab at (0, e, h). -/
theorem tap_entry (w : FVec Ideal S1x1024x512 .bf16) (e : Fin 1024) (h : Fin 512) :
    shapeCast S1024x512 w shapeCasts_S1x1024x512_S1024x512 (ix2 e h) = w (ix3 0 e h) :=
  shapeCast_apply w shapeCasts_S1x1024x512_S1024x512 (ix2 e h) (ix3 0 e h)
    (by rewrite [Shape.rowMajor_val_three, Shape.rowMajor_val_two]
        show ((0 : Fin 1).val * 1024 + e.val) * 512 + h.val = e.val * 512 + h.val; simp)

/-- The 512-row result unflattened at (p, b, h) is the result at (4p + b, h). -/
theorem unflatten_entry (y : FVec Ideal S512x512 .f32) (p : Fin 128) (b : Fin 4) (h : Fin 512) :
    shapeCast S128x4x512 y shapeCasts_S512x512_S128x4x512 (ix3 p b h) = y (ix2 (row p b) h) :=
  shapeCast_apply y shapeCasts_S512x512_S128x4x512 (ix3 p b h) (ix2 (row p b) h)
    (by rewrite [Shape.rowMajor_val_three, Shape.rowMajor_val_two]
        show (4 * p.val + b.val) * 512 + h.val = (p.val * 4 + b.val) * 512 + h.val; omega)

/-- The row of biases given two unit axes and repeated over positions and batch, at (p, b, h): the bias of channel h. -/
theorem bias_entry (bv : FVec Ideal S1x512 .f32) (p : Fin 128) (b : Fin 4) (h : Fin 512) :
    broadcastTo S128x4x512 (shapeCast S1x1x512 bv shapeCasts_S1x512_S1x1x512) broadcasts_S1x1x512_S128x4x512 (ix3 p b h)
      = bv (ix2 0 h) := by
  rw [broadcastTo_apply _ broadcasts_S1x1x512_S128x4x512 (ix3 p b h) (ix3 0 0 h) (fun a => match a with
    | ⟨0, _⟩ => by show (0 : Nat) = if (1 : Nat) = 1 then 0 else _; rw [if_pos rfl]
    | ⟨1, _⟩ => by show (0 : Nat) = if (1 : Nat) = 1 then 0 else _; rw [if_pos rfl]
    | ⟨2, _⟩ => by show h.val = if (512 : Nat) = 1 then 0 else h.val; rw [if_neg (by decide)])]
  exact shapeCast_apply bv shapeCasts_S1x512_S1x1x512 (ix3 0 0 h) (ix2 0 h)
    (by rewrite [Shape.rowMajor_val_three, Shape.rowMajor_val_two]
        show (0 : Fin 1).val * 512 + h.val = ((0 : Fin 1).val * 1 + (0 : Fin 1).val) * 512 + h.val; simp)

/-! ## The stored tile -/

theorem tile_entry (x0 x1 x2 : Vec Ideal S128x4x1024 .bf16) (w0 w1 w2 : Vec Ideal S1x1024x512 .bf16)
    (bv : Vec Ideal S1x512 .f32) (p : Fin 128) (b : Fin 4) (h : Fin 512) :
    k0_pay1 x0 x1 x2 w0 w1 w2 bv (ix3 p b h)
      = max ((((∑ e : Fin 1024, x0 (ix3 p b e) * w0 (ix3 0 e h)) + (∑ e : Fin 1024, x1 (ix3 p b e) * w1 (ix3 0 e h)))
              + (∑ e : Fin 1024, x2 (ix3 p b e) * w2 (ix3 0 e h))) + bv (ix2 0 h)) 0 := by
  unfold k0_pay1
  simp only [shapeCast_self]
  rw [truncf_apply, maximumf_apply, broadcast_apply, addf_apply, unflatten_entry, addf_apply, addf_apply,
    product_entry, product_entry, product_entry, bias_entry]
  simp only [flatten_entry, tap_entry]
  exact congrArg (max _) Ideal.ofBits_zero_f32

/-- Three taps of a width-3 convolution over the embedding axis, the bias, clipped below at zero, entry by entry: the function
    each stored tile is a restriction of. -/
def convOf (A0 A1 A2 : S1024x4x1024.Idx → EReal) (WT : S3x1024x512.Idx → EReal) (Bv : S1x512.Idx → EReal) : S1024x4x512.Idx → EReal :=
  fun i => max ((((∑ e : Fin 1024, A0 (ix3 (i 0) (i 1) e) * WT (ix3 0 e (i 2))) + (∑ e : Fin 1024, A1 (ix3 (i 0) (i 1) e) * WT (ix3 1 e (i 2))))
              + (∑ e : Fin 1024, A2 (ix3 (i 0) (i 1) e) * WT (ix3 2 e (i 2)))) + Bv (ix2 0 (i 2))) 0

end Cert.KernelIdeal.ConvBlock

end
-- ==== Proof.ConvArray.lean ====
/-
  The first kernel's result as ONE array. The grid has 8 points: point `t` reads positions 128t … 128t + 127 of the
  three shifted copies of the embedded sequence, the whole 3 × 1024 × 512 block of taps and the whole bias row, and
  writes positions 128t … 128t + 127 of the 1024 × 4 × 512 features. Each stored tile is the restriction of one
  function of the five whole arrays,
  `convOf A0 A1 A2 WT Bv (s, b, h) = max (((∑ₑ A0[s,b,e]·WT[0,e,h] + ∑ₑ A1[s,b,e]·WT[1,e,h]) + ∑ₑ A2[s,b,e]·WT[2,e,h]) + Bv[0,h]) 0`,
  the 8 tiles cover the features, so after the region the feature array IS that function, whatever the five arrays
  hold when the region is entered.
-/
import proofs.«144658_j78769700209271_1_alg».proof.Proof.Gen.KernelIdeal.Frame
import proofs.«144658_j78769700209271_1_alg».proof.Proof.ConvBlock
import Idealize.ShloMosaic.Lib.Pipeline.Value
import Idealize.ShloMosaic.Lib.ValueIdx

noncomputable section

namespace Cert.KernelIdeal.ConvArray

open Cert.KernelIdeal Cert.KernelIdeal.Gen Idealize.ShloMosaic Idealize.ShloMosaic.TcCoe Idealize.SL.Sem
open Idealize.ShloMosaic.ValueIdx
open Idealize.ShloMosaic.Pipeline (Dat)

open Cert.KernelIdeal.ConvBlock (convOf)

variable (V : (c : Dev nD) → (b : Ref sig .tc) → Buf (Elt Ideal) ((c : Thread nD τ).loc b))

/-- The five arrays as the region finds them, at their literal types. -/
abbrev e0Arr (c : Dev nD) : S1024x4x1024.Idx → EReal := V c main_v10
abbrev e1Arr (c : Dev nD) : S1024x4x1024.Idx → EReal := V c main_v11
abbrev e2Arr (c : Dev nD) : S1024x4x1024.Idx → EReal := V c main_v12
abbrev tapArr (c : Dev nD) : S3x1024x512.Idx → EReal := V c main_v14
abbrev biasArr (c : Dev nD) : S1x512.Idx → EReal := V c main_v15

theorem zeros3 : (![0, 0, 0] : Fin 3 → Nat) = fun _ => 0 := funext fun a => by fin_cases a <;> rfl
theorem zeros2 : (![0, 0] : Fin 2 → Nat) = fun _ => 0 := funext fun a => by fin_cases a <;> rfl

/-- The six index maps over the 8 points: the three embedding windows follow the output's position block, the taps and the
    bias stay at block zero, and the output's block indices range over 8 × 1 × 1. -/
theorem index_maps : ∀ t : Fin cfg0.N, win0_0.index t (0 : Fin 3) = win0_5.index t (0 : Fin 3)
    ∧ win0_0.index t (1 : Fin 3) = 0 ∧ win0_0.index t (2 : Fin 3) = 0
    ∧ win0_1.index t (0 : Fin 3) = win0_5.index t (0 : Fin 3)
    ∧ win0_1.index t (1 : Fin 3) = 0 ∧ win0_1.index t (2 : Fin 3) = 0
    ∧ win0_2.index t (0 : Fin 3) = win0_5.index t (0 : Fin 3)
    ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 3) ≤ 7 ∧ win0_5.index t (1 : Fin 3) = 0 ∧ win0_5.index t (2 : Fin 3) = 0 :=
  (by decide +kernel : ∀ t : Fin grid0.N, _)

/-- Every position block of the output is some point's. -/
theorem every_block : ∀ q0 : Fin 8, ∃ t : Fin cfg0.N, win0_5.index t = ![q0.val, 0, 0] :=
  (by decide +kernel : ∀ q0 : Fin 8, ∃ t : Fin grid0.N, win0_5.index t = ![q0.val, 0, 0])

set_option maxHeartbeats 1000000 in
/-- What point `t` writes back is block `t` of `convOf` of the five arrays as the region finds them. -/
theorem written_back (c : Dev nD) (t : Fin cfg0.N) :
    (dat0 V c).flushed 5 t
      = ((cfg0.win 5).blk t).view.read (Elt Ideal) (convOf (V c main_v10) (V c main_v11) (V c main_v12) (V c main_v14) (V c main_v15)) := by
  show (cfg0.win 5).cut (grid0.coords t) ((dat0 V c).after 5 t) = _
  rw [after0_5]
  unfold out0_5
  rw [View.canon_unit_zero zeros3]
  simp only [View.ld_unit_zero (S := S128x4x1024) zeros3, View.ld_unit_zero (S := S1x512) zeros2]
  obtain ⟨a0, a1, a2, b0, b1, b2, c0, c1, c2, w0, w1, w2, v0, v1, -, o1, o2⟩ := index_maps t
  funext y
  obtain ⟨p, b, h, rfl⟩ : ∃ (p : Fin 128) (b : Fin 4) (h : Fin 512), y = ix3 p b h := ⟨y 0, y 1, y 2, eq_ix3 y⟩
  show k0_pay1 (iblk0 V c 0 t) (iblk0 V c 1 t) (iblk0 V c 2 t) (View.ld (iblk0 V c 3 t) r0_1) (View.ld (iblk0 V c 3 t) r0_2)
      (View.ld (iblk0 V c 3 t) r0_3) (iblk0 V c 4 t) (ix3 p b h) = _
  refine (ConvBlock.tile_entry (iblk0 V c 0 t) (iblk0 V c 1 t) (iblk0 V c 2 t) (View.ld (iblk0 V c 3 t) r0_1) (View.ld (iblk0 V c 3 t) r0_2)
      (View.ld (iblk0 V c 3 t) r0_3) (iblk0 V c 4 t) p b h).trans ?_
  show max ((((∑ e : Fin 1024, e0Arr V c (((cfg0.win 0).blk t).view.emb (ix3 p b e)) * tapArr V c (((cfg0.win 3).blk t).view.emb (r0_1.emb (ix3 0 e h))))
        + (∑ e : Fin 1024, e1Arr V c (((cfg0.win 1).blk t).view.emb (ix3 p b e)) * tapArr V c (((cfg0.win 3).blk t).view.emb (r0_2.emb (ix3 0 e h)))))
        + (∑ e : Fin 1024, e2Arr V c (((cfg0.win 2).blk t).view.emb (ix3 p b e)) * tapArr V c (((cfg0.win 3).blk t).view.emb (r0_3.emb (ix3 0 e h)))))
        + biasArr V c (((cfg0.win 4).blk t).view.emb (ix2 0 h))) 0
    = max ((((∑ e : Fin 1024, e0Arr V c (ix3 ((((cfg0.win 5).blk t).view.emb (ix3 p b h)) 0) ((((cfg0.win 5).blk t).view.emb (ix3 p b h)) 1) e) * tapArr V c (ix3 0 e ((((cfg0.win 5).blk t).view.emb (ix3 p b h)) 2)))
        + (∑ e : Fin 1024, e1Arr V c (ix3 ((((cfg0.win 5).blk t).view.emb (ix3 p b h)) 0) ((((cfg0.win 5).blk t).view.emb (ix3 p b h)) 1) e) * tapArr V c (ix3 1 e ((((cfg0.win 5).blk t).view.emb (ix3 p b h)) 2))))
        + (∑ e : Fin 1024, e2Arr V c (ix3 ((((cfg0.win 5).blk t).view.emb (ix3 p b h)) 0) ((((cfg0.win 5).blk t).view.emb (ix3 p b h)) 1) e) * tapArr V c (ix3 2 e ((((cfg0.win 5).blk t).view.emb (ix3 p b h)) 2))))
        + biasArr V c (ix2 0 ((((cfg0.win 5).blk t).view.emb (ix3 p b h)) 2))) 0
  have hp : p.val < 128 := p.isLt
  have hb : b.val < 4 := b.isLt
  have hh : h.val < 512 := h.isLt
  have hx0 : ∀ e : Fin 1024, (((cfg0.win 0).blk t).view.emb (ix3 p b e) : S1024x4x1024.Idx) = ix3 ((((cfg0.win 5).blk t).view.emb (ix3 p b h)) 0) ((((cfg0.win 5).blk t).view.emb (ix3 p b h)) 1) e := fun e => by
    funext a; apply Fin.ext
    match a with
    | ⟨0, _⟩ => show win0_0.index t (0 : Fin 3) * 128 + 1 * p.val = win0_5.index t (0 : Fin 3) * 128 + 1 * p.val; omega
    | ⟨1, _⟩ => show win0_0.index t (1 : Fin 3) * 4 + 1 * b.val = win0_5.index t (1 : Fin 3) * 4 + 1 * b.val; omega
    | ⟨2, _⟩ => show win0_0.index t (2 : Fin 3) * 1024 + 1 * e.val = e.val; omega
  have hx1 : ∀ e : Fin 1024, (((cfg0.win 1).blk t).view.emb (ix3 p b e) : S1024x4x1024.Idx) = ix3 ((((cfg0.win 5).blk t).view.emb (ix3 p b h)) 0) ((((cfg0.win 5).blk t).view.emb (ix3 p b h)) 1) e := fun e => by
    funext a; apply Fin.ext
    match a with
    | ⟨0, _⟩ => show win0_1.index t (0 : Fin 3) * 128 + 1 * p.val = win0_5.index t (0 : Fin 3) * 128 + 1 * p.val; omega
    | ⟨1, _⟩ => show win0_1.index t (1 : Fin 3) * 4 + 1 * b.val = win0_5.index t (1 : Fin 3) * 4 + 1 * b.val; omega
    | ⟨2, _⟩ => show win0_1.index t (2 : Fin 3) * 1024 + 1 * e.val = e.val; omega
  have hx2 : ∀ e : Fin 1024, (((cfg0.win 2).blk t).view.emb (ix3 p b e) : S1024x4x1024.Idx) = ix3 ((((cfg0.win 5).blk t).view.emb (ix3 p b h)) 0) ((((cfg0.win 5).blk t).view.emb (ix3 p b h)) 1) e := fun e => by
    funext a; apply Fin.ext
    match a with
    | ⟨0, _⟩ => show win0_2.index t (0 : Fin 3) * 128 + 1 * p.val = win0_5.index t (0 : Fin 3) * 128 + 1 * p.val; omega
    | ⟨1, _⟩ => show win0_2.index t (1 : Fin 3) * 4 + 1 * b.val = win0_5.index t (1 : Fin 3) * 4 + 1 * b.val; omega
    | ⟨2, _⟩ => show win0_2.index t (2 : Fin 3) * 1024 + 1 * e.val = e.val; omega
  have hw0 : ∀ e : Fin 1024, (((cfg0.win 3).blk t).view.emb (r0_1.emb (ix3 0 e h)) : S3x1024x512.Idx) = ix3 0 e ((((cfg0.win 5).blk t).view.emb (ix3 p b h)) 2) := fun e => by
    funext a; apply Fin.ext
    match a with
    | ⟨0, _⟩ => show win0_3.index t (0 : Fin 3) * 3 + 1 * (0 + 1 * (0 : Fin 1).val) = (0 : Fin 3).val; simp [w0]
    | ⟨1, _⟩ => show win0_3.index t (1 : Fin 3) * 1024 + 1 * (0 + 1 * e.val) = e.val; omega
    | ⟨2, _⟩ => show win0_3.index t (2 : Fin 3) * 512 + 1 * (0 + 1 * h.val) = win0_5.index t (2 : Fin 3) * 512 + 1 * h.val; omega
  have hw1 : ∀ e : Fin 1024, (((cfg0.win 3).blk t).view.emb (r0_2.emb (ix3 0 e h)) : S3x1024x512.Idx) = ix3 1 e ((((cfg0.win 5).blk t).view.emb (ix3 p b h)) 2) := fun e => by
    funext a; apply Fin.ext
    match a with
    | ⟨0, _⟩ => show win0_3.index t (0 : Fin 3) * 3 + 1 * (1 + 1 * (0 : Fin 1).val) = (1 : Fin 3).val; simp [w0]
    | ⟨1, _⟩ => show win0_3.index t (1 : Fin 3) * 1024 + 1 * (0 + 1 * e.val) = e.val; omega
    | ⟨2, _⟩ => show win0_3.index t (2 : Fin 3) * 512 + 1 * (0 + 1 * h.val) = win0_5.index t (2 : Fin 3) * 512 + 1 * h.val; omega
  have hw2 : ∀ e : Fin 1024, (((cfg0.win 3).blk t).view.emb (r0_3.emb (ix3 0 e h)) : S3x1024x512.Idx) = ix3 2 e ((((cfg0.win 5).blk t).view.emb (ix3 p b h)) 2) := fun e => by
    funext a; apply Fin.ext
    match a with
    | ⟨0, _⟩ => show win0_3.index t (0 : Fin 3) * 3 + 1 * (2 + 1 * (0 : Fin 1).val) = (2 : Fin 3).val; simp [w0]
    | ⟨1, _⟩ => show win0_3.index t (1 : Fin 3) * 1024 + 1 * (0 + 1 * e.val) = e.val; omega
    | ⟨2, _⟩ => show win0_3.index t (2 : Fin 3) * 512 + 1 * (0 + 1 * h.val) = win0_5.index t (2 : Fin 3) * 512 + 1 * h.val; omega
  have hbias : (((cfg0.win 4).blk t).view.emb (ix2 (0 : Fin 1) h) : S1x512.Idx) = ix2 0 ((((cfg0.win 5).blk t).view.emb (ix3 p b h)) 2) := by
    funext a; apply Fin.ext
    match a with
    | ⟨0, _⟩ => show win0_4.index t (0 : Fin 2) * 1 + 1 * (0 : Fin 1).val = (0 : Fin 1).val; simp [v0]
    | ⟨1, _⟩ => show win0_4.index t (1 : Fin 2) * 512 + 1 * h.val = win0_5.index t (2 : Fin 3) * 512 + 1 * h.val; omega
  rw [hbias]
  simp only [hx0, hx1, hx2, hw0, hw1, hw2]
  rfl

/-- An index of the features is in point `t`'s tile iff each coordinate is in the tile's span on its axis. -/
theorem in_tile (t : Fin cfg0.N) (i : S1024x4x512.Idx) :
    i ∈ ((cfg0.win 5).blk t).view.set ↔ ∀ a : Fin 3, win0_5.index t a * S128x4x512.size a ≤ (i a).val ∧ (i a).val < win0_5.index t a * S128x4x512.size a + S128x4x512.size a := by
  show i ∈ ((View.whole main_v16).slice (win0_5.rect t)).set ↔ _
  rw [View.set_slice_whole, Rect.mem_set_unit]
  exact Iff.rfl

/-- The tiles cover the features: position s lies in the tile of block s / 128. -/
theorem tiles_cover (i : S1024x4x512.Idx) : ∃ t : Fin cfg0.N, (cfg0.win 5).flush t = true ∧ i ∈ ((cfg0.win 5).blk t).view.set := by
  have hi0 : (i 0).val < 1024 := (i 0).isLt
  have hi1 : (i 1).val < 4 := (i 1).isLt
  have hi2 : (i 2).val < 512 := (i 2).isLt
  obtain ⟨t, ht⟩ := every_block ⟨(i 0).val / 128, by omega⟩
  have q0 : win0_5.index t (0 : Fin 3) = (i 0).val / 128 := congrFun ht 0
  have q1 : win0_5.index t (1 : Fin 3) = 0 := congrFun ht 1
  have q2 : win0_5.index t (2 : Fin 3) = 0 := congrFun ht 2
  refine ⟨t, flush0_5 t, ?_⟩
  rw [in_tile]
  intro a
  match a with
  | ⟨0, _⟩ => show win0_5.index t (0 : Fin 3) * 128 ≤ (i 0).val ∧ (i 0).val < win0_5.index t (0 : Fin 3) * 128 + 128; omega
  | ⟨1, _⟩ => show win0_5.index t (1 : Fin 3) * 4 ≤ (i 1).val ∧ (i 1).val < win0_5.index t (1 : Fin 3) * 4 + 4; omega
  | ⟨2, _⟩ => show win0_5.index t (2 : Fin 3) * 512 ≤ (i 2).val ∧ (i 2).val < win0_5.index t (2 : Fin 3) * 512 + 512; omega

/-- After the region the feature array is `convOf` of the five input arrays as the region found them. -/
theorem feature_array (c : Dev nD) :
    (dat0 V c).arrAt 5 cfg0.N = convOf (V c main_v10) (V c main_v11) (V c main_v12) (V c main_v14) (V c main_v15) :=
  (dat0 V c).arrAt_eq_of_cover 5 (convOf (V c main_v10) (V c main_v11) (V c main_v12) (V c main_v14) (V c main_v15)) (fun t _ => written_back V c t) tiles_cover

end Cert.KernelIdeal.ConvArray

end
-- ==== Proof.LogitBlock.lean ====
/-
  One block of the vocabulary projection. A grid point of the second kernel holds a 512-row tile `a` of the
  features, a 3200-row tile `w` of the projection matrix and the matching 3200 biases `bv` (kept as a 1 × 3200 row),
  and stores `a · wᵀ + bv`. Over the extended reals the matrix unit's product into a zero accumulator is the plain
  sum over the hidden axis, and the row of biases is repeated down the 512 rows, so the entry (r, v) of the stored
  tile is `∑ₖ a[r,k] · w[v,k] + bv[0,v]`.
-/
import proofs.«144658_j78769700209271_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.LogitBlock

open Cert.KernelIdeal Cert.KernelIdeal.Gen Idealize.ShloMosaic Idealize.ShloMosaic.ValueIdx

/-! ## Where the contraction reads its two operands -/

/-- The left operand is read on the output's row. -/
theorem lhs_row (i : S512x3200.Idx) (q : dot_S512x512_S3200x512_S512x3200_1_1_0_0_n_n.contr.Idx) :
    (dot_S512x512_S3200x512_S512x3200_1_1_0_0_n_n.lhsIdx i q 0).val = (i 0).val := by
  unfold DotDims.lhsIdx
  rw [dif_neg (show ¬(0 : Fin S512x512.rank) ∈ dot_S512x512_S3200x512_S512x3200_1_1_0_0_n_n.lhsBatch by decide), dif_pos (show (0 : Fin S512x512.rank) ∈ dot_S512x512_S3200x512_S512x3200_1_1_0_0_n_n.lhsNonContracting by decide)]
  rfl
/-- and at the summation index on its second axis; -/
theorem lhs_sum (i : S512x3200.Idx) (q : dot_S512x512_S3200x512_S512x3200_1_1_0_0_n_n.contr.Idx) :
    (dot_S512x512_S3200x512_S512x3200_1_1_0_0_n_n.lhsIdx i q 1).val = (q ⟨0, by decide⟩).val :=
  dot_S512x512_S3200x512_S512x3200_1_1_0_0_n_n.lhsIdx_val_of_single rfl i q
/-- the right operand on the output's COLUMN (the matrix is used transposed) -/
theorem rhs_row (i : S512x3200.Idx) (q : dot_S512x512_S3200x512_S512x3200_1_1_0_0_n_n.contr.Idx) :
    (dot_S512x512_S3200x512_S512x3200_1_1_0_0_n_n.rhsIdx i q 0).val = (i 1).val := by
  unfold DotDims.rhsIdx
  rw [dif_neg (show ¬(0 : Fin S3200x512.rank) ∈ dot_S512x512_S3200x512_S512x3200_1_1_0_0_n_n.rhsBatch by decide), dif_pos (show (0 : Fin S3200x512.rank) ∈ dot_S512x512_S3200x512_S512x3200_1_1_0_0_n_n.rhsNonContracting by decide)]
  rfl
/-- and at the summation index on its second axis. -/
theorem rhs_sum (i : S512x3200.Idx) (q : dot_S512x512_S3200x512_S512x3200_1_1_0_0_n_n.contr.Idx) :
    (dot_S512x512_S3200x512_S512x3200_1_1_0_0_n_n.rhsIdx i q 1).val = (q ⟨0, by decide⟩).val :=
  dot_S512x512_S3200x512_S512x3200_1_1_0_0_n_n.rhsIdx_val_of_single rfl i q

/-- The product into a zero accumulator, at entry (r, v): the sum over the 512 hidden coordinates. -/
theorem product_entry (a : FVec Ideal S512x512 .bf16) (w : FVec Ideal S3200x512 .bf16) (r : Fin 512) (v : Fin 3200) :
    matmul dot_S512x512_S3200x512_S512x3200_1_1_0_0_n_n none a w (constant S512x3200 .f32 0x00000000#32) (ix2 r v)
      = ∑ k : Fin 512, a (ix2 r k) * w (ix2 v k) := by
  simp only [matmul]
  rw [Ideal.matmul_constant_zero_apply, ← Equiv.sum_comp (contrEquiv1 dot_S512x512_S3200x512_S512x3200_1_1_0_0_n_n 512 rfl rfl).symm]
  refine Finset.sum_congr rfl fun k _ => ?_
  have hk := contrEquiv1_symm_val dot_S512x512_S3200x512_S512x3200_1_1_0_0_n_n 512 rfl rfl k
  have el : dot_S512x512_S3200x512_S512x3200_1_1_0_0_n_n.lhsIdx (ix2 r v) ((contrEquiv1 dot_S512x512_S3200x512_S512x3200_1_1_0_0_n_n 512 rfl rfl).symm k) = ix2 r k := funext fun a => Fin.ext (by
    match a with
    | ⟨0, _⟩ => exact lhs_row _ _
    | ⟨1, _⟩ => exact (lhs_sum _ _).trans hk)
  have er : dot_S512x512_S3200x512_S512x3200_1_1_0_0_n_n.rhsIdx (ix2 r v) ((contrEquiv1 dot_S512x512_S3200x512_S512x3200_1_1_0_0_n_n 512 rfl rfl).symm k) = ix2 v k := funext fun a => Fin.ext (by
    match a with
    | ⟨0, _⟩ => exact rhs_row _ _
    | ⟨1, _⟩ => exact (rhs_sum _ _).trans hk)
  rw [el, er]

/-- The row of biases repeated down the rows, at entry (r, v): the bias of column v. -/
theorem bias_entry (bv : FVec Ideal S1x3200 .f32) (r : Fin 512) (v : Fin 3200) :
    broadcastTo S512x3200 bv broadcasts_S1x3200_S512x3200 (ix2 r v) = bv (ix2 0 v) :=
  broadcastTo_apply bv broadcasts_S1x3200_S512x3200 (ix2 r v) (ix2 0 v) (fun a => match a with
    | ⟨0, _⟩ => by show (0 : Nat) = if (1 : Nat) = 1 then 0 else _; rw [if_pos rfl]
    | ⟨1, _⟩ => by show v.val = if (3200 : Nat) = 1 then 0 else v.val; rw [if_neg (by decide)])

/-- The stored tile at entry (r, v). -/
theorem tile_entry (a : Vec Ideal S512x512 .bf16) (w : Vec Ideal S3200x512 .bf16) (bv : Vec Ideal S1x3200 .f32)
    (r : Fin 512) (v : Fin 3200) :
    k1_pay1 a w bv (ix2 r v) = (∑ k : Fin 512, a (ix2 r k) * w (ix2 v k)) + bv (ix2 0 v) := by
  unfold k1_pay1
  simp only [shapeCast_self]
  rw [addf_apply, product_entry, bias_entry]

/-- Features times the transposed projection matrix plus the bias row, entry by entry: the function each stored tile is a
    restriction of. -/
def logitsOf (A : S4096x512.Idx → EReal) (W : S32000x512.Idx → EReal) (Bv : S1x32000.Idx → EReal) : S4096x32000.Idx → EReal :=
  fun i => (∑ k : Fin 512, A (ix2 (i 0) k) * W (ix2 (i 1) k)) + Bv (ix2 0 (i 1))

end Cert.KernelIdeal.LogitBlock

end
-- ==== Proof.LogitArray.lean ====
/-
  The second kernel's result as ONE array. The grid is 10 × 8: point (j, i) reads feature rows 512i … 512i + 511,
  projection rows 3200j … 3200j + 3199 and the same span of the bias row, and writes the 512 × 3200 tile at block
  (i, j) of the 4096 × 32000 output. Each stored tile is the restriction of one function of the three whole arrays,
  `logitsOf A W Bv (r, v) = ∑ₖ A[r,k] · W[v,k] + Bv[0,v]`, the 80 tiles cover the output, so after the region the
  output array IS that function, whatever the three arrays hold when the region is entered.
-/
import proofs.«144658_j78769700209271_1_alg».proof.Proof.Gen.KernelIdeal.Frame
import proofs.«144658_j78769700209271_1_alg».proof.Proof.LogitBlock
import Idealize.ShloMosaic.Lib.Pipeline.Value
import Idealize.ShloMosaic.Lib.ValueIdx

noncomputable section

namespace Cert.KernelIdeal.LogitArray

open Cert.KernelIdeal Cert.KernelIdeal.Gen Idealize.ShloMosaic Idealize.ShloMosaic.TcCoe Idealize.SL.Sem
open Idealize.ShloMosaic.ValueIdx
open Idealize.ShloMosaic.Pipeline (Dat)

open Cert.KernelIdeal.LogitBlock (logitsOf)

variable (V : (c : Dev nD) → (b : Ref sig .tc) → Buf (Elt Ideal) ((c : Thread nD τ).loc b))

/-- The three arrays as the region finds them, at their literal types. -/
abbrev featArr (c : Dev nD) : S4096x512.Idx → EReal := V c main_v17
abbrev projArr (c : Dev nD) : S32000x512.Idx → EReal := V c main_v18
abbrev biasArr (c : Dev nD) : S1x32000.Idx → EReal := V c main_v19

theorem zeros2 : (![0, 0] : Fin 2 → Nat) = fun _ => 0 := funext fun a => by fin_cases a <;> rfl

/-- The four index maps over the 80 points: the features follow the output's row block, the projection matrix and the
    bias its column block, and the output's block indices range over 8 × 10. -/
theorem index_maps : ∀ t : Fin cfg1.N, win1_0.index t (0 : Fin 2) = win1_3.index t (0 : Fin 2)
    ∧ win1_0.index t (1 : Fin 2) = 0
    ∧ win1_1.index t (0 : Fin 2) = win1_3.index t (1 : Fin 2)
    ∧ win1_1.index t (1 : Fin 2) = 0
    ∧ win1_2.index t (0 : Fin 2) = 0
    ∧ win1_2.index t (1 : Fin 2) = win1_3.index t (1 : Fin 2)
    ∧ win1_3.index t (0 : Fin 2) ≤ 7 ∧ win1_3.index t (1 : Fin 2) ≤ 9 :=
  (by decide +kernel : ∀ t : Fin grid1.N, _)

/-- Every block (i, j) of the output is some point's. -/
theorem every_block : ∀ (q0 : Fin 8) (q1 : Fin 10), ∃ t : Fin cfg1.N, win1_3.index t = ![q0.val, q1.val] :=
  (by decide +kernel : ∀ (q0 : Fin 8) (q1 : Fin 10), ∃ t : Fin grid1.N, win1_3.index t = ![q0.val, q1.val])

/-- What point `t` writes back is block `t` of `logitsOf` of the three arrays as the region finds them. -/
theorem written_back (c : Dev nD) (t : Fin cfg1.N) :
    (dat1 V c).flushed 3 t
      = ((cfg1.win 3).blk t).view.read (Elt Ideal) (logitsOf (V c main_v17) (V c main_v18) (V c main_v19)) := by
  show (cfg1.win 3).cut (grid1.coords t) ((dat1 V c).after 3 t) = _
  rw [after1_3]
  unfold out1_3
  rw [View.canon_unit_zero zeros2]
  simp only [View.ld_unit_zero (S := S512x512) zeros2, View.ld_unit_zero (S := S3200x512) zeros2, View.ld_unit_zero (S := S1x3200) zeros2]
  obtain ⟨e0, e1, e2, e3, e4, e5, -, -⟩ := index_maps t
  funext y
  obtain ⟨r, v, rfl⟩ : ∃ (r : Fin 512) (v : Fin 3200), y = ix2 r v := ⟨y 0, y 1, eq_ix2 y⟩
  show k1_pay1 (iblk1 V c 0 t) (iblk1 V c 1 t) (iblk1 V c 2 t) (ix2 r v) = _
  refine (LogitBlock.tile_entry (iblk1 V c 0 t) (iblk1 V c 1 t) (iblk1 V c 2 t) r v).trans ?_
  show (∑ k : Fin 512, featArr V c (((cfg1.win 0).blk t).view.emb (ix2 r k)) * projArr V c (((cfg1.win 1).blk t).view.emb (ix2 v k)))
      + biasArr V c (((cfg1.win 2).blk t).view.emb (ix2 0 v))
    = (∑ k : Fin 512, featArr V c (ix2 ((((cfg1.win 3).blk t).view.emb (ix2 r v)) 0) k) * projArr V c (ix2 ((((cfg1.win 3).blk t).view.emb (ix2 r v)) 1) k))
      + biasArr V c (ix2 0 ((((cfg1.win 3).blk t).view.emb (ix2 r v)) 1))
  have hr : r.val < 512 := r.isLt
  have hv : v.val < 3200 := v.isLt
  have h0 : ∀ k : Fin 512, ((cfg1.win 0).blk t).view.emb (ix2 r k) = ix2 ((((cfg1.win 3).blk t).view.emb (ix2 r v)) 0) k := fun k => by
    funext a; apply Fin.ext
    match a with
    | ⟨0, _⟩ => show win1_0.index t (0 : Fin 2) * 512 + 1 * r.val = win1_3.index t (0 : Fin 2) * 512 + 1 * r.val; omega
    | ⟨1, _⟩ => show win1_0.index t (1 : Fin 2) * 512 + 1 * k.val = k.val; omega
  have h1 : ∀ k : Fin 512, ((cfg1.win 1).blk t).view.emb (ix2 v k) = ix2 ((((cfg1.win 3).blk t).view.emb (ix2 r v)) 1) k := fun k => by
    funext a; apply Fin.ext
    match a with
    | ⟨0, _⟩ => show win1_1.index t (0 : Fin 2) * 3200 + 1 * v.val = win1_3.index t (1 : Fin 2) * 3200 + 1 * v.val; omega
    | ⟨1, _⟩ => show win1_1.index t (1 : Fin 2) * 512 + 1 * k.val = k.val; omega
  have h2 : ((cfg1.win 2).blk t).view.emb (ix2 (0 : Fin 1) v) = ix2 0 ((((cfg1.win 3).blk t).view.emb (ix2 r v)) 1) := by
    funext a; apply Fin.ext
    match a with
    | ⟨0, _⟩ => show win1_2.index t (0 : Fin 2) * 1 + 1 * (0 : Fin 1).val = (0 : Fin 1).val; simp [e4]
    | ⟨1, _⟩ => show win1_2.index t (1 : Fin 2) * 3200 + 1 * v.val = win1_3.index t (1 : Fin 2) * 3200 + 1 * v.val; omega
  rw [h2]
  simp only [h0, h1]
  rfl

/-- An index of the output is in point `t`'s tile iff each coordinate is in the tile's span on its axis. -/
theorem in_tile (t : Fin cfg1.N) (i : S4096x32000.Idx) :
    i ∈ ((cfg1.win 3).blk t).view.set ↔ ∀ a : Fin 2, win1_3.index t a * S512x3200.size a ≤ (i a).val ∧ (i a).val < win1_3.index t a * S512x3200.size a + S512x3200.size a := by
  show i ∈ ((View.whole main_v20).slice (win1_3.rect t)).set ↔ _
  rw [View.set_slice_whole, Rect.mem_set_unit]
  exact Iff.rfl

/-- The tiles cover the output: entry (r, v) lies in the tile of block (r / 512, v / 3200). -/
theorem tiles_cover (i : S4096x32000.Idx) : ∃ t : Fin cfg1.N, (cfg1.win 3).flush t = true ∧ i ∈ ((cfg1.win 3).blk t).view.set := by
  have hi0 : (i 0).val < 4096 := (i 0).isLt
  have hi1 : (i 1).val < 32000 := (i 1).isLt
  obtain ⟨t, ht⟩ := every_block ⟨(i 0).val / 512, by omega⟩ ⟨(i 1).val / 3200, by omega⟩
  have q0 : win1_3.index t (0 : Fin 2) = (i 0).val / 512 := congrFun ht 0
  have q1 : win1_3.index t (1 : Fin 2) = (i 1).val / 3200 := congrFun ht 1
  refine ⟨t, flush1_3 t, ?_⟩
  rw [in_tile]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 3200 ≤ (i 1).val ∧ (i 1).val < win1_3.index t (1 : Fin 2) * 3200 + 3200; omega

/-- After the region the output array is `logitsOf` of the three input arrays as the region found them. -/
theorem output_array (c : Dev nD) :
    (dat1 V c).arrAt 3 cfg1.N = logitsOf (V c main_v17) (V c main_v18) (V c main_v19) :=
  (dat1 V c).arrAt_eq_of_cover 3 (logitsOf (V c main_v17) (V c main_v18) (V c main_v19)) (fun t _ => written_back V c t) tiles_cover

end Cert.KernelIdeal.LogitArray

end
-- ==== Proof.Spec.lean ====
/-
  What both programs compute, as one function of five arrays, over the extended reals.
  `E` is the embedded sequence with its two leading pad positions (1026 × 4 × 1024), `Wc` the width-3 convolution's
  weights (512 channels × 1024 × 3 taps), `Bc` its 512 biases, `Wf` the 32000 × 512 projection and `Bf` its biases.
    tap j (s, b, h)   = ∑ₑ E[s + j, b, e] · Wc[h, e, j]                 (j = 0, 1, 2)
    feature (s, b, h) = max (((tap 0 + tap 1) + tap 2) + Bc[h]) 0
    result (s, b, v)  = ∑ₖ feature (s, b, k) · Wf[v, k] + Bf[v]
  One program adds the bias after the three taps and the other before them; addition on the extended reals is
  commutative and associative (at the infinities too), so the two groupings are one value: `bias_first`.
-/
import Idealize.ShloMosaic.PureOps.Ideal
import Idealize.ShloMosaic.Lib.ValueIdx

noncomputable section

namespace Cert.Spec

open Idealize.ShloMosaic Idealize.ShloMosaic.ValueIdx

/-- Position s seen through tap j: position s + j of the padded sequence. -/
abbrev shifted (j : Fin 3) (s : Fin 1024) : Fin 1026 := ⟨s.val + j.val, by have := s.isLt; have := j.isLt; omega⟩

/-- One tap of the convolution at (s, b, h). -/
def tap (E : (⟨3, ![1026, 4, 1024]⟩ : Shape).Idx → EReal) (Wc : (⟨3, ![512, 1024, 3]⟩ : Shape).Idx → EReal)
    (j : Fin 3) (s : Fin 1024) (b : Fin 4) (h : Fin 512) : EReal :=
  ∑ e : Fin 1024, E (ix3 (shifted j s) b e) * Wc (ix3 h e j)

/-- The three taps, the bias, clipped below at zero. -/
def feature (E : (⟨3, ![1026, 4, 1024]⟩ : Shape).Idx → EReal) (Wc : (⟨3, ![512, 1024, 3]⟩ : Shape).Idx → EReal)
    (Bc : (⟨1, ![512]⟩ : Shape).Idx → EReal) : (⟨3, ![1024, 4, 512]⟩ : Shape).Idx → EReal :=
  fun i => max (((tap E Wc 0 (i 0) (i 1) (i 2) + tap E Wc 1 (i 0) (i 1) (i 2)) + tap E Wc 2 (i 0) (i 1) (i 2)) + Bc (ix1 (i 2))) 0

/-- The projection of a feature array onto the vocabulary. -/
def project (Ft : (⟨3, ![1024, 4, 512]⟩ : Shape).Idx → EReal) (Wf : (⟨2, ![32000, 512]⟩ : Shape).Idx → EReal)
    (Bf : (⟨1, ![32000]⟩ : Shape).Idx → EReal) : (⟨3, ![1024, 4, 32000]⟩ : Shape).Idx → EReal :=
  fun i => (∑ k : Fin 512, Ft (ix3 (i 0) (i 1) k) * Wf (ix2 (i 2) k)) + Bf (ix1 (i 2))

/-- The whole network. -/
def result (E : (⟨3, ![1026, 4, 1024]⟩ : Shape).Idx → EReal) (Wc : (⟨3, ![512, 1024, 3]⟩ : Shape).Idx → EReal)
    (Bc : (⟨1, ![512]⟩ : Shape).Idx → EReal) (Wf : (⟨2, ![32000, 512]⟩ : Shape).Idx → EReal)
    (Bf : (⟨1, ![32000]⟩ : Shape).Idx → EReal) : (⟨3, ![1024, 4, 32000]⟩ : Shape).Idx → EReal :=
  project (feature E Wc Bc) Wf Bf

/-- Adding the bias first or last gives the same sum. -/
theorem bias_first (a b c d : EReal) : ((d + a) + b) + c = ((a + b) + c) + d := by
  rw [add_comm d a, add_right_comm a d b, add_right_comm (a + b) d c]

end Cert.Spec

end
-- ==== Proof.KernelNet.lean ====
/-
  The kernel's program as one function of its arrays, and that it is the specification.
  Around its two kernels the program only re-lays arrays: it cuts the padded embedded sequence `E` into the three
  shifted 1024-position windows, moves the convolution's tap axis to the front, gives the two bias vectors a unit row
  axis, flattens (position, batch) into one axis of 4096 rows between the kernels and unflattens it at the end; every
  change of float format is the identity over the extended reals. Read at an entry, each of these picks ONE entry of its
  operand, so the composed network at (s, b, v) is
  `∑ₖ max (((tap 0 + tap 1) + tap 2) + Bc[k]) 0 · Wf[v,k] + Bf[v]`: `Spec.result`.
-/
import proofs.«144658_j78769700209271_1_alg».proof.Proof.ConvBlock
import proofs.«144658_j78769700209271_1_alg».proof.Proof.LogitBlock
import proofs.«144658_j78769700209271_1_alg».proof.Proof.Spec
import Idealize.ShloMosaic.Lib.Pipeline.Value
import Idealize.ShloMosaic.Lib.ValueIdx

noncomputable section

namespace Cert.KernelIdeal.Net

open Cert.KernelIdeal Cert.KernelIdeal.Gen Idealize.ShloMosaic Idealize.ShloMosaic.ValueIdx
open Cert.KernelIdeal.ConvBlock (convOf)
open Cert.KernelIdeal.LogitBlock (logitsOf)
open Cert.Spec (shifted)

/-- Position s and batch entry b sit at row 4s + b of the flattened (position, batch) axis. -/
abbrev flat (s : Fin 1024) (b : Fin 4) : Fin 4096 := ⟨4 * s.val + b.val, by have := s.isLt; have := b.isLt; omega⟩

/-! ## Each re-laying, at an entry -/

/-- The window at shift 0 of the embedded sequence. -/
theorem window0_entry (E : FVec Ideal S1026x4x1024 .f32) (s : Fin 1024) (b : Fin 4) (e : Fin 1024) :
    extractStridedSlice S1024x4x1024 ![0, 0, 0] (truncf .bf16 E bitsLt_bf16_f32) slices_S1026x4x1024_S1024x4x1024_0_0_0 (ix3 s b e)
      = E (ix3 (shifted 0 s) b e) :=
  extractStridedSlice_apply ![0, 0, 0] (truncf .bf16 E bitsLt_bf16_f32) slices_S1026x4x1024_S1024x4x1024_0_0_0 (ix3 s b e) (ix3 (shifted 0 s) b e)
    (fun a => match a with
      | ⟨0, _⟩ => by show s.val + (0 : Fin 3).val = 0 + s.val; simp
      | ⟨1, _⟩ => by show b.val = 0 + b.val; omega
      | ⟨2, _⟩ => by show e.val = 0 + e.val; omega)
/-- The window at shift 1. -/
theorem window1_entry (E : FVec Ideal S1026x4x1024 .f32) (s : Fin 1024) (b : Fin 4) (e : Fin 1024) :
    extractStridedSlice S1024x4x1024 ![1, 0, 0] (truncf .bf16 E bitsLt_bf16_f32) slices_S1026x4x1024_S1024x4x1024_1_0_0 (ix3 s b e)
      = E (ix3 (shifted 1 s) b e) :=
  extractStridedSlice_apply ![1, 0, 0] (truncf .bf16 E bitsLt_bf16_f32) slices_S1026x4x1024_S1024x4x1024_1_0_0 (ix3 s b e) (ix3 (shifted 1 s) b e)
    (fun a => match a with
      | ⟨0, _⟩ => by show s.val + (1 : Fin 3).val = 1 + s.val; simp; omega
      | ⟨1, _⟩ => by show b.val = 0 + b.val; omega
      | ⟨2, _⟩ => by show e.val = 0 + e.val; omega)
/-- The window at shift 2. -/
theorem window2_entry (E : FVec Ideal S1026x4x1024 .f32) (s : Fin 1024) (b : Fin 4) (e : Fin 1024) :
    extractStridedSlice S1024x4x1024 ![2, 0, 0] (truncf .bf16 E bitsLt_bf16_f32) slices_S1026x4x1024_S1024x4x1024_2_0_0 (ix3 s b e)
      = E (ix3 (shifted 2 s) b e) :=
  extractStridedSlice_apply ![2, 0, 0] (truncf .bf16 E bitsLt_bf16_f32) slices_S1026x4x1024_S1024x4x1024_2_0_0 (ix3 s b e) (ix3 (shifted 2 s) b e)
    (fun a => match a with
      | ⟨0, _⟩ => by show s.val + (2 : Fin 3).val = 2 + s.val; simp; omega
      | ⟨1, _⟩ => by show b.val = 0 + b.val; omega
      | ⟨2, _⟩ => by show e.val = 0 + e.val; omega)

/-- The taps with their axis in front: entry (j, e, h) is the weight (h, e, j). -/
theorem taps_entry (Wc : FVec Ideal S512x1024x3 .f32) (j : Fin 3) (e : Fin 1024) (h : Fin 512) :
    transpose S3x1024x512 [2, 1, 0] Wc transposes_S512x1024x3_S3x1024x512_2_1_0 (ix3 j e h) = Wc (ix3 h e j) :=
  transpose_apply [2, 1, 0] Wc transposes_S512x1024x3_S3x1024x512_2_1_0 (ix3 j e h) (ix3 h e j)
    (fun b => match b with
      | ⟨0, _⟩ => rfl
      | ⟨1, _⟩ => rfl
      | ⟨2, _⟩ => rfl)

/-- The convolution's biases as a row. -/
theorem conv_bias_entry (Bc : FVec Ideal S512 .f32) (h : Fin 512) :
    shapeCast S1x512 Bc shapeCasts_S512_S1x512 (ix2 0 h) = Bc (ix1 h) :=
  shapeCast_apply Bc shapeCasts_S512_S1x512 (ix2 0 h) (ix1 h)
    (by rewrite [Shape.rowMajor_val_one, Shape.rowMajor_val_two]; show h.val = (0 : Fin 1).val * 512 + h.val; simp)

/-- The features with (position, batch) flattened: row 4s + b, channel k is the feature (s, b, k). -/
theorem flat_entry (Y : S1024x4x512.Idx → EReal) (s : Fin 1024) (b : Fin 4) (k : Fin 512) :
    shapeCast S4096x512 Y shapeCasts_S1024x4x512_S4096x512 (ix2 (flat s b) k) = Y (ix3 s b k) :=
  shapeCast_apply Y shapeCasts_S1024x4x512_S4096x512 (ix2 (flat s b) k) (ix3 s b k)
    (by rewrite [Shape.rowMajor_val_three, Shape.rowMajor_val_two]
        show (s.val * 4 + b.val) * 512 + k.val = (4 * s.val + b.val) * 512 + k.val; omega)

/-- The projection's biases as a row. -/
theorem vocab_bias_entry (Bf : FVec Ideal S32000 .f32) (v : Fin 32000) :
    shapeCast S1x32000 Bf shapeCasts_S32000_S1x32000 (ix2 0 v) = Bf (ix1 v) :=
  shapeCast_apply Bf shapeCasts_S32000_S1x32000 (ix2 0 v) (ix1 v)
    (by rewrite [Shape.rowMajor_val_one, Shape.rowMajor_val_two]; show v.val = (0 : Fin 1).val * 32000 + v.val; simp)

/-- The 4096-row result unflattened: entry (s, b, v) is row 4s + b, column v. -/
theorem unflat_entry (Z : S4096x32000.Idx → EReal) (s : Fin 1024) (b : Fin 4) (v : Fin 32000) :
    shapeCast S1024x4x32000 Z shapeCasts_S4096x32000_S1024x4x32000 (ix3 s b v) = Z (ix2 (flat s b) v) :=
  shapeCast_apply Z shapeCasts_S4096x32000_S1024x4x32000 (ix3 s b v) (ix2 (flat s b) v)
    (by rewrite [Shape.rowMajor_val_three, Shape.rowMajor_val_two]
        show (4 * s.val + b.val) * 32000 + v.val = (s.val * 4 + b.val) * 32000 + v.val; omega)

/-! ## The network -/

/-- The kernel's program from the embedded sequence on, as one function: the three windows, the taps in front, the
    bias rows, the first kernel's array function, the flattening, the second kernel's array function, the unflattening. -/
def network (E : FVec Ideal S1026x4x1024 .f32) (Wc : FVec Ideal S512x1024x3 .f32) (Bc : FVec Ideal S512 .f32)
    (Wf : FVec Ideal S32000x512 .f32) (Bf : FVec Ideal S32000 .f32) : S1024x4x32000.Idx → EReal :=
  shapeCast S1024x4x32000
    (logitsOf
      (shapeCast S4096x512
        (convOf
          (extractStridedSlice S1024x4x1024 ![0, 0, 0] (truncf .bf16 E bitsLt_bf16_f32) slices_S1026x4x1024_S1024x4x1024_0_0_0)
          (extractStridedSlice S1024x4x1024 ![1, 0, 0] (truncf .bf16 E bitsLt_bf16_f32) slices_S1026x4x1024_S1024x4x1024_1_0_0)
          (extractStridedSlice S1024x4x1024 ![2, 0, 0] (truncf .bf16 E bitsLt_bf16_f32) slices_S1026x4x1024_S1024x4x1024_2_0_0)
          (truncf .bf16 (transpose S3x1024x512 [2, 1, 0] Wc transposes_S512x1024x3_S3x1024x512_2_1_0) bitsLt_bf16_f32)
          (shapeCast S1x512 Bc shapeCasts_S512_S1x512))
        shapeCasts_S1024x4x512_S4096x512)
      (truncf .bf16 Wf bitsLt_bf16_f32)
      (shapeCast S1x32000 Bf shapeCasts_S32000_S1x32000))
    shapeCasts_S4096x32000_S1024x4x32000

/-- The first kernel's array function of the re-laid arrays is the specification's feature array. -/
theorem features_eq (E : FVec Ideal S1026x4x1024 .f32) (Wc : FVec Ideal S512x1024x3 .f32) (Bc : FVec Ideal S512 .f32) :
    convOf
      (extractStridedSlice S1024x4x1024 ![0, 0, 0] (truncf .bf16 E bitsLt_bf16_f32) slices_S1026x4x1024_S1024x4x1024_0_0_0)
      (extractStridedSlice S1024x4x1024 ![1, 0, 0] (truncf .bf16 E bitsLt_bf16_f32) slices_S1026x4x1024_S1024x4x1024_1_0_0)
      (extractStridedSlice S1024x4x1024 ![2, 0, 0] (truncf .bf16 E bitsLt_bf16_f32) slices_S1026x4x1024_S1024x4x1024_2_0_0)
      (truncf .bf16 (transpose S3x1024x512 [2, 1, 0] Wc transposes_S512x1024x3_S3x1024x512_2_1_0) bitsLt_bf16_f32)
      (shapeCast S1x512 Bc shapeCasts_S512_S1x512)
    = Spec.feature E Wc Bc := by
  funext i
  obtain ⟨s, b, h, rfl⟩ : ∃ (s : Fin 1024) (b : Fin 4) (h : Fin 512), i = ix3 s b h := ⟨i 0, i 1, i 2, eq_ix3 i⟩
  have t0 : (∑ e : Fin 1024, extractStridedSlice S1024x4x1024 ![0, 0, 0] (truncf .bf16 E bitsLt_bf16_f32) slices_S1026x4x1024_S1024x4x1024_0_0_0 (ix3 s b e) * truncf .bf16 (transpose S3x1024x512 [2, 1, 0] Wc transposes_S512x1024x3_S3x1024x512_2_1_0) bitsLt_bf16_f32 (ix3 0 e h))
      = ∑ e : Fin 1024, E (ix3 (shifted 0 s) b e) * Wc (ix3 h e 0) :=
    Finset.sum_congr rfl fun e _ => by rw [window0_entry, truncf_apply, taps_entry]
  have t1 : (∑ e : Fin 1024, extractStridedSlice S1024x4x1024 ![1, 0, 0] (truncf .bf16 E bitsLt_bf16_f32) slices_S1026x4x1024_S1024x4x1024_1_0_0 (ix3 s b e) * truncf .bf16 (transpose S3x1024x512 [2, 1, 0] Wc transposes_S512x1024x3_S3x1024x512_2_1_0) bitsLt_bf16_f32 (ix3 1 e h))
      = ∑ e : Fin 1024, E (ix3 (shifted 1 s) b e) * Wc (ix3 h e 1) :=
    Finset.sum_congr rfl fun e _ => by rw [window1_entry, truncf_apply, taps_entry]
  have t2 : (∑ e : Fin 1024, extractStridedSlice S1024x4x1024 ![2, 0, 0] (truncf .bf16 E bitsLt_bf16_f32) slices_S1026x4x1024_S1024x4x1024_2_0_0 (ix3 s b e) * truncf .bf16 (transpose S3x1024x512 [2, 1, 0] Wc transposes_S512x1024x3_S3x1024x512_2_1_0) bitsLt_bf16_f32 (ix3 2 e h))
      = ∑ e : Fin 1024, E (ix3 (shifted 2 s) b e) * Wc (ix3 h e 2) :=
    Finset.sum_congr rfl fun e _ => by rw [window2_entry, truncf_apply, taps_entry]
  show max ((((∑ e : Fin 1024, extractStridedSlice S1024x4x1024 ![0, 0, 0] (truncf .bf16 E bitsLt_bf16_f32) slices_S1026x4x1024_S1024x4x1024_0_0_0 (ix3 s b e) * truncf .bf16 (transpose S3x1024x512 [2, 1, 0] Wc transposes_S512x1024x3_S3x1024x512_2_1_0) bitsLt_bf16_f32 (ix3 0 e h))
        + (∑ e : Fin 1024, extractStridedSlice S1024x4x1024 ![1, 0, 0] (truncf .bf16 E bitsLt_bf16_f32) slices_S1026x4x1024_S1024x4x1024_1_0_0 (ix3 s b e) * truncf .bf16 (transpose S3x1024x512 [2, 1, 0] Wc transposes_S512x1024x3_S3x1024x512_2_1_0) bitsLt_bf16_f32 (ix3 1 e h)))
        + (∑ e : Fin 1024, extractStridedSlice S1024x4x1024 ![2, 0, 0] (truncf .bf16 E bitsLt_bf16_f32) slices_S1026x4x1024_S1024x4x1024_2_0_0 (ix3 s b e) * truncf .bf16 (transpose S3x1024x512 [2, 1, 0] Wc transposes_S512x1024x3_S3x1024x512_2_1_0) bitsLt_bf16_f32 (ix3 2 e h)))
        + shapeCast S1x512 Bc shapeCasts_S512_S1x512 (ix2 0 h)) 0
    = max ((((∑ e : Fin 1024, E (ix3 (shifted 0 s) b e) * Wc (ix3 h e 0)) + (∑ e : Fin 1024, E (ix3 (shifted 1 s) b e) * Wc (ix3 h e 1)))
        + (∑ e : Fin 1024, E (ix3 (shifted 2 s) b e) * Wc (ix3 h e 2))) + Bc (ix1 h)) 0
  rw [t0, t1, t2, conv_bias_entry]

/-- The kernel's network is the specification. -/
theorem network_eq (E : FVec Ideal S1026x4x1024 .f32) (Wc : FVec Ideal S512x1024x3 .f32) (Bc : FVec Ideal S512 .f32)
    (Wf : FVec Ideal S32000x512 .f32) (Bf : FVec Ideal S32000 .f32) :
    network E Wc Bc Wf Bf = Spec.result E Wc Bc Wf Bf := by
  funext i
  obtain ⟨s, b, v, rfl⟩ : ∃ (s : Fin 1024) (b : Fin 4) (v : Fin 32000), i = ix3 s b v := ⟨i 0, i 1, i 2, eq_ix3 i⟩
  unfold network
  rw [unflat_entry, features_eq]
  show (∑ k : Fin 512, shapeCast S4096x512 (Spec.feature E Wc Bc) shapeCasts_S1024x4x512_S4096x512 (ix2 (flat s b) k) * truncf .bf16 Wf bitsLt_bf16_f32 (ix2 v k))
      + shapeCast S1x32000 Bf shapeCasts_S32000_S1x32000 (ix2 0 v)
    = (∑ k : Fin 512, Spec.feature E Wc Bc (ix3 s b k) * Wf (ix2 v k)) + Bf (ix1 v)
  simp only [flat_entry, truncf_apply, vocab_bias_entry]

end Cert.KernelIdeal.Net

end
-- ==== Proof.KernelGlue.lean ====
/-
  The kernel's program from launch to return, as one function of the launch memory. Before the first kernel the host
  pads the tokens with two rows of token 0, wraps negative ids by 32000, gathers their rows of the embedding table
  (`embedded`), cuts the three shifted windows, moves the taps' axis to the front and gives the bias a row axis; the
  first kernel leaves `convOf` of those five arrays in its output (ConvArray); the host flattens it and re-lays the
  projection's two arguments; the second kernel leaves `logitsOf` of those three (LogitArray); the host unflattens.
  No stretch and no kernel writes an argument, so each array is read back to the launch contents, and the result
  buffer ends at `Net.network` of the gathered sequence and the four float arguments.
-/
import proofs.«144658_j78769700209271_1_alg».proof.Proof.Gen.KernelIdeal.Frame
import proofs.«144658_j78769700209271_1_alg».proof.Proof.ConvArray
import proofs.«144658_j78769700209271_1_alg».proof.Proof.LogitArray
import proofs.«144658_j78769700209271_1_alg».proof.Proof.KernelNet
import Idealize.ShloMosaic.Lib.StableHlo.Run

noncomputable section

namespace Cert.KernelIdeal.Glue

open Cert.KernelIdeal Cert.KernelIdeal.Gen Idealize.ShloMosaic Idealize.ShloMosaic.TcCoe Idealize.SL.Sem
open Idealize.ShloMosaic.StableHlo
open Cert.KernelIdeal.ConvBlock (convOf)
open Cert.KernelIdeal.LogitBlock (logitsOf)

/-- The tokens with two leading rows of token 0. -/
def padded (tok : (⟨S1024x4, .i32⟩ : BufTy).Contents (Elt Ideal)) : (⟨S1026x4, .i32⟩ : BufTy).Contents (Elt Ideal) :=
  concatenate S1026x4 0 [⟨S2x4, (broadcastInDim S2x4 ![] bcast_S_S2x4 (constantI S_ 32 0#32))⟩, ⟨S1024x4, tok⟩] concatenates_S2x4_S1024x4_S1026x4_d0

/-- The embedded padded sequence: a negative id is wrapped by 32000, and each id's row of the table is gathered. -/
def embedded (tok : (⟨S1024x4, .i32⟩ : BufTy).Contents (Elt Ideal)) (tab : (⟨S32000x1024, .f32⟩ : BufTy).Contents (Elt Ideal)) :
    FVec Ideal S1026x4x1024 .f32 :=
  Host.gather gather_S32000x1024_S1026x4x1_S1026x4x1024_2_0_n_n_0_2_11024 tab
    (broadcastInDim S1026x4x1 ![0, 1] bcast_S1026x4_S1026x4x1_0_1
      (select (cmpi .slt (padded tok) (broadcastInDim S1026x4 ![] bcast_S_S1026x4 (constantI S_ 32 0#32)))
        (addi (padded tok) (broadcastInDim S1026x4 ![] bcast_S_S1026x4 (constantI S_ 32 32000#32)))
        (padded tok)))

variable (m : (ℓ : Loc nD τ sig) → Buf (Elt Ideal) ℓ) (ρ : Dev nD → PrngReg)

/-! ## The first kernel's five arrays as it finds them -/

set_option maxHeartbeats 1000000 in
theorem entry_window0 (c : Dev nD) :
    (V1 m ρ c main_v10 : FVec Ideal S1024x4x1024 .bf16) = extractStridedSlice S1024x4x1024 ![0, 0, 0] (truncf (F := Ideal) .bf16 (embedded (m ((c.tc : Thread nD τ).loc main_arg0)) (m ((c.tc : Thread nD τ).loc main_arg1))) bitsLt_bf16_f32) slices_S1026x4x1024_S1024x4x1024_0_0_0 := by
  show StableHlo.after hostOps0 (W0 m ρ c) (Proc.devRef .tc main_v10) = _
  dsimp only [hostOps0]
  after_results
  rfl
set_option maxHeartbeats 1000000 in
theorem entry_window1 (c : Dev nD) :
    (V1 m ρ c main_v11 : FVec Ideal S1024x4x1024 .bf16) = extractStridedSlice S1024x4x1024 ![1, 0, 0] (truncf (F := Ideal) .bf16 (embedded (m ((c.tc : Thread nD τ).loc main_arg0)) (m ((c.tc : Thread nD τ).loc main_arg1))) bitsLt_bf16_f32) slices_S1026x4x1024_S1024x4x1024_1_0_0 := by
  show StableHlo.after hostOps0 (W0 m ρ c) (Proc.devRef .tc main_v11) = _
  dsimp only [hostOps0]
  after_results
  rfl
set_option maxHeartbeats 1000000 in
theorem entry_window2 (c : Dev nD) :
    (V1 m ρ c main_v12 : FVec Ideal S1024x4x1024 .bf16) = extractStridedSlice S1024x4x1024 ![2, 0, 0] (truncf (F := Ideal) .bf16 (embedded (m ((c.tc : Thread nD τ).loc main_arg0)) (m ((c.tc : Thread nD τ).loc main_arg1))) bitsLt_bf16_f32) slices_S1026x4x1024_S1024x4x1024_2_0_0 := by
  show StableHlo.after hostOps0 (W0 m ρ c) (Proc.devRef .tc main_v12) = _
  dsimp only [hostOps0]
  after_results
  rfl
set_option maxHeartbeats 1000000 in
theorem entry_taps (c : Dev nD) :
    (V1 m ρ c main_v14 : FVec Ideal S3x1024x512 .bf16) = truncf (F := Ideal) .bf16 (transpose S3x1024x512 [2, 1, 0] (m ((c.tc : Thread nD τ).loc main_arg2) : FVec Ideal S512x1024x3 .f32) transposes_S512x1024x3_S3x1024x512_2_1_0) bitsLt_bf16_f32 := by
  show StableHlo.after hostOps0 (W0 m ρ c) (Proc.devRef .tc main_v14) = _
  dsimp only [hostOps0]
  after_results
set_option maxHeartbeats 1000000 in
theorem entry_conv_bias (c : Dev nD) :
    V1 m ρ c main_v15 = shapeCast S1x512 (m ((c.tc : Thread nD τ).loc main_arg3)) shapeCasts_S512_S1x512 := by
  show StableHlo.after hostOps0 (W0 m ρ c) (Proc.devRef .tc main_v15) = _
  dsimp only [hostOps0]
  after_results
  rfl

/-! ## The projection's two arguments reach the second kernel as launched -/

set_option maxHeartbeats 1000000 in
theorem kept_proj (c : Dev nD) : W2 m ρ c (Proc.devRef .tc main_arg4) = m ((c.tc : Thread nD τ).loc main_arg4) :=
  (W2_of_ne m ρ c main_arg4 (by decide)).trans (by
    show StableHlo.after hostOps0 (W0 m ρ c) (Proc.devRef .tc main_arg4) = _
    dsimp only [hostOps0]
    after_results)
set_option maxHeartbeats 1000000 in
theorem kept_proj_bias (c : Dev nD) : W2 m ρ c (Proc.devRef .tc main_arg5) = m ((c.tc : Thread nD τ).loc main_arg5) :=
  (W2_of_ne m ρ c main_arg5 (by decide)).trans (by
    show StableHlo.after hostOps0 (W0 m ρ c) (Proc.devRef .tc main_arg5) = _
    dsimp only [hostOps0]
    after_results)

/-! ## The second kernel's three arrays as it finds them -/

theorem entry_features (c : Dev nD) :
    V3 m ρ c main_v17 = shapeCast S4096x512 (W2 m ρ c (Proc.devRef .tc main_v16)) shapeCasts_S1024x4x512_S4096x512 := by
  show StableHlo.after hostOps1 (W2 m ρ c) (Proc.devRef .tc main_v17) = _
  dsimp only [hostOps1]
  after_results
  rfl
theorem entry_proj (c : Dev nD) :
    (V3 m ρ c main_v18 : FVec Ideal S32000x512 .bf16) = truncf (F := Ideal) .bf16 (W2 m ρ c (Proc.devRef .tc main_arg4) : FVec Ideal S32000x512 .f32) bitsLt_bf16_f32 := by
  show StableHlo.after hostOps1 (W2 m ρ c) (Proc.devRef .tc main_v18) = _
  dsimp only [hostOps1]
  after_results
theorem entry_proj_bias (c : Dev nD) :
    V3 m ρ c main_v19 = shapeCast S1x32000 (W2 m ρ c (Proc.devRef .tc main_arg5)) shapeCasts_S32000_S1x32000 := by
  show StableHlo.after hostOps1 (W2 m ρ c) (Proc.devRef .tc main_v19) = _
  dsimp only [hostOps1]
  after_results
  rfl

/-! ## The result buffer at the return -/

theorem exit_result (c : Dev nD) :
    W5 m ρ c (Proc.devRef .tc main_v21) = shapeCast S1024x4x32000 (W4 m ρ c (Proc.devRef .tc main_v20)) shapeCasts_S4096x32000_S1024x4x32000 := by
  show StableHlo.after hostOps2 (W4 m ρ c) (Proc.devRef .tc main_v21) = _
  dsimp only [hostOps2]
  after_results
  rfl

/-- The first kernel's output at its exit: `convOf` of its five arrays. -/
theorem features_at_exit (c : Dev nD) :
    W2 m ρ c (Proc.devRef .tc main_v16)
      = convOf (V1 m ρ c main_v10) (V1 m ρ c main_v11) (V1 m ρ c main_v12) (V1 m ρ c main_v14) (V1 m ρ c main_v15) :=
  (W2_arr m ρ c 5).trans (ConvArray.feature_array (V1 m ρ) c)

/-- The second kernel's output at its exit: `logitsOf` of its three arrays. -/
theorem logits_at_exit (c : Dev nD) :
    W4 m ρ c (Proc.devRef .tc main_v20) = logitsOf (V3 m ρ c main_v17) (V3 m ρ c main_v18) (V3 m ρ c main_v19) :=
  (W4_arr m ρ c 3).trans (LogitArray.output_array (V3 m ρ) c)

/-- The result buffer at the return is the network of the gathered sequence and the four float arguments. -/
theorem result_contents (c : Dev nD) :
    W5 m ρ c (Proc.devRef .tc main_v21)
      = Net.network (embedded (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5)) := by
  rw [exit_result, logits_at_exit, entry_features, entry_proj, entry_proj_bias, features_at_exit,
    entry_window0, entry_window1, entry_window2, entry_taps, entry_conv_bias, kept_proj, kept_proj_bias]
  rfl

end Cert.KernelIdeal.Glue

end
-- ==== Proof.RefSide.lean ====
/-
  The reference is the specification. Its program gathers the embedded padded sequence `E` (the same gather the kernel's
  program makes), and from there on every operation's entry depends on one entry of each operand or is a contraction's
  sum: the three windows of `E` against the three tap slices of the weights, the bias broadcast over positions and batch
  and added FIRST, the clip at zero, the contraction with the projection matrix, the projection's bias. Read entry by
  entry this is `Spec.result` with the convolution's bias added before the taps instead of after them, which is the
  same sum.
-/
import proofs.«144658_j78769700209271_1_alg».proof.Proof.Gen.ReferenceIdeal.Run
import proofs.«144658_j78769700209271_1_alg».proof.Proof.Gen.ReferenceIdeal.Read
import proofs.«144658_j78769700209271_1_alg».proof.Proof.Spec
import Idealize.ShloMosaic.PureOps.Ideal.Laws

noncomputable section

namespace Cert.ReferenceIdeal.Net

open Cert.ReferenceIdeal Cert.ReferenceIdeal.Gen Cert.ReferenceIdeal.Read Idealize.ShloMosaic Idealize.ShloMosaic.ValueIdx
open Cert.Spec (shifted)

/-! ## Where each stage reads its operands -/

section Indices
variable (s : Fin 1024) (b : Fin 4) (h : Fin 512) (v : Fin 32000)

/-- The first contraction reads the window at shift 0: position s of the padded sequence. -/
theorem window0 (k : Fin 1024) : idx_main_v9 (lidx_main_v12 (ix3 s b h) k) = ix3 (shifted 0 s) b k :=
  funext fun a => Fin.ext (by
    match a with
    | ⟨0, _⟩ => show s.val = s.val + (0 : Fin 3).val; simp
    | ⟨1, _⟩ => rfl
    | ⟨2, _⟩ => rfl)
/-- The second reads the window at shift 1. -/
theorem window1 (k : Fin 1024) : idx_main_v16 (lidx_main_v19 (ix3 s b h) k) = ix3 (shifted 1 s) b k :=
  funext fun a => Fin.ext (by
    match a with
    | ⟨0, _⟩ => show 1 + s.val = s.val + (1 : Fin 3).val; simp; omega
    | ⟨1, _⟩ => rfl
    | ⟨2, _⟩ => rfl)
/-- The third reads the window at shift 2. -/
theorem window2 (k : Fin 1024) : idx_main_v21 (lidx_main_v24 (ix3 s b h) k) = ix3 (shifted 2 s) b k :=
  funext fun a => Fin.ext (by
    match a with
    | ⟨0, _⟩ => show 2 + s.val = s.val + (2 : Fin 3).val; simp; omega
    | ⟨1, _⟩ => rfl
    | ⟨2, _⟩ => rfl)
/-- Tap 0's slice of the weights, without its unit axis, at (h, k): the weight (h, k, 0). -/
theorem weight0 (k : Fin 1024) : idx_main_v10 (idx_main_v11 (ridx_main_v12 (ix3 s b h) k)) = ix3 h k 0 :=
  funext fun a => Fin.ext (by
    have hk : k.val < 1024 := k.isLt
    match a with
    | ⟨0, _⟩ => show (h.val * 1024 + k.val) / 1024 = h.val; omega
    | ⟨1, _⟩ => show (h.val * 1024 + k.val) / 1 % 1024 = k.val; omega
    | ⟨2, _⟩ => rfl)
/-- Tap 1's. -/
theorem weight1 (k : Fin 1024) : idx_main_v17 (idx_main_v18 (ridx_main_v19 (ix3 s b h) k)) = ix3 h k 1 :=
  funext fun a => Fin.ext (by
    have hk : k.val < 1024 := k.isLt
    match a with
    | ⟨0, _⟩ => show (h.val * 1024 + k.val) / 1024 = h.val; omega
    | ⟨1, _⟩ => show (h.val * 1024 + k.val) / 1 % 1024 = k.val; omega
    | ⟨2, _⟩ => rfl)
/-- Tap 2's. -/
theorem weight2 (k : Fin 1024) : idx_main_v22 (idx_main_v23 (ridx_main_v24 (ix3 s b h) k)) = ix3 h k 2 :=
  funext fun a => Fin.ext (by
    have hk : k.val < 1024 := k.isLt
    match a with
    | ⟨0, _⟩ => show (h.val * 1024 + k.val) / 1024 = h.val; omega
    | ⟨1, _⟩ => show (h.val * 1024 + k.val) / 1 % 1024 = k.val; omega
    | ⟨2, _⟩ => rfl)
/-- The convolution's bias broadcast over positions and batch: channel h's. -/
theorem conv_bias : idx_main_v13 (idx_main_v14 (ix3 s b h)) = ix1 h :=
  funext fun a => Fin.ext (by match a with | ⟨0, _⟩ => rfl)
/-- The last contraction reads the feature (s, b, k) -/
theorem feat_at (k : Fin 512) : lidx_main_v27 (ix3 s b v) k = ix3 s b k :=
  funext fun a => Fin.ext (by match a with | ⟨0, _⟩ => rfl | ⟨1, _⟩ => rfl | ⟨2, _⟩ => rfl)
/-- against the projection's row v, -/
theorem proj_at (k : Fin 512) : ridx_main_v27 (ix3 s b v) k = ix2 v k :=
  funext fun a => Fin.ext (by match a with | ⟨0, _⟩ => rfl | ⟨1, _⟩ => rfl)
/-- and the projection's bias is column v's. -/
theorem proj_bias : idx_main_v28 (idx_main_v29 (ix3 s b v)) = ix1 v :=
  funext fun a => Fin.ext (by match a with | ⟨0, _⟩ => rfl)

end Indices

/-! ## The stages -/

variable (x0 : (⟨S1024x4, .i32⟩ : BufTy).Contents (Elt Ideal)) (x1 : (⟨S32000x1024, .f32⟩ : BufTy).Contents (Elt Ideal))
  (x2 : (⟨S512x1024x3, .f32⟩ : BufTy).Contents (Elt Ideal)) (x3 : (⟨S512, .f32⟩ : BufTy).Contents (Elt Ideal))
  (x4 : (⟨S32000x512, .f32⟩ : BufTy).Contents (Elt Ideal)) (x5 : (⟨S32000, .f32⟩ : BufTy).Contents (Elt Ideal))

/-- The clipped convolution is the specification's feature array of the gathered sequence. -/
theorem feature_entry (s : Fin 1024) (b : Fin 4) (h : Fin 512) :
    val_main_v26 (F := Ideal) x0 x1 x2 x3 (ix3 s b h) = Spec.feature (val_main_v8 (F := Ideal) x0 x1) x2 x3 (ix3 s b h) := by
  rw [val_main_v26_apply, val_main_v25_apply, val_main_v20_apply, val_main_v15_apply, val_main_v14_apply, val_main_v13_apply,
    val_main_v12_apply, val_main_v19_apply, val_main_v24_apply, val_main_call0_v0_apply, val_main_call0_cst_apply]
  simp only [val_main_v9_apply, val_main_v16_apply, val_main_v21_apply, val_main_v11_apply, val_main_v10_apply,
    val_main_v18_apply, val_main_v17_apply, val_main_v23_apply, val_main_v22_apply,
    window0, window1, window2, weight0, weight1, weight2, conv_bias]
  show max (((x3 (ix1 h) + (∑ e : Fin 1024, val_main_v8 (F := Ideal) x0 x1 (ix3 (shifted 0 s) b e) * x2 (ix3 h e 0)))
        + (∑ e : Fin 1024, val_main_v8 (F := Ideal) x0 x1 (ix3 (shifted 1 s) b e) * x2 (ix3 h e 1)))
        + (∑ e : Fin 1024, val_main_v8 (F := Ideal) x0 x1 (ix3 (shifted 2 s) b e) * x2 (ix3 h e 2))) (Ideal.ofBits .f32 0x00000000#32)
    = max ((((∑ e : Fin 1024, val_main_v8 (F := Ideal) x0 x1 (ix3 (shifted 0 s) b e) * x2 (ix3 h e 0))
        + (∑ e : Fin 1024, val_main_v8 (F := Ideal) x0 x1 (ix3 (shifted 1 s) b e) * x2 (ix3 h e 1)))
        + (∑ e : Fin 1024, val_main_v8 (F := Ideal) x0 x1 (ix3 (shifted 2 s) b e) * x2 (ix3 h e 2))) + x3 (ix1 h)) 0
  rw [Spec.bias_first, Ideal.ofBits_zero_f32]

/-- The reference's result is the specification at the gathered sequence and the other four arguments. -/
theorem result_eq :
    val_main_v30 (F := Ideal) x0 x1 x2 x3 x4 x5 = Spec.result (val_main_v8 (F := Ideal) x0 x1) x2 x3 x4 x5 := by
  funext i
  obtain ⟨s, b, v, rfl⟩ : ∃ (s : Fin 1024) (b : Fin 4) (v : Fin 32000), i = ix3 s b v := ⟨i 0, i 1, i 2, eq_ix3 i⟩
  rw [val_main_v30_apply, val_main_v27_apply, val_main_v29_apply, val_main_v28_apply]
  simp only [feat_at, proj_at, proj_bias, feature_entry]
  rfl

end Cert.ReferenceIdeal.Net

end
-- ==== Proof.lean ====
/-
  Embedding lookup, a causal width-3 convolution with bias and a clip at zero, then a projection onto the vocabulary
  with bias, computed by two tiled kernels with re-layings between them, against the same network written with
  whole-array contractions. Over the extended reals both are
    result (s, b, v) = ∑ₖ max (tap 0 + tap 1 + tap 2 + Bc[k]) 0 · Wf[v,k] + Bf[v],   tap j = ∑ₑ E[s + j, b, e] · Wc[·, e, j]
  of the gathered padded sequence `E` (Proof/Spec.lean). The kernel's side: each stored tile's entry (Proof/ConvBlock.lean,
  Proof/LogitBlock.lean), the tiles assembled into each kernel's output array (Proof/ConvArray.lean, Proof/LogitArray.lean),
  the host re-layings between them read entry by entry (Proof/KernelNet.lean), all read back to the launch memory along
  the program's run (Proof/KernelGlue.lean, Proof/KernelRun.lean). The reference's side: its stages read entry by entry
  (Proof/RefSide.lean). The two differ in where the convolution's bias enters a four-term sum, and both gather `E` by the
  same operations of the same two arguments. The ideal pass rewrote nothing, so `preserves` asks nothing.
-/
import proofs.«144658_j78769700209271_1_alg».proof.Defs
import proofs.«144658_j78769700209271_1_alg».proof.Proof.Gen.Kernel
import proofs.«144658_j78769700209271_1_alg».proof.Proof.Gen.Kernel.Skeleton
import proofs.«144658_j78769700209271_1_alg».proof.Proof.Gen.Kernel.Launch
import proofs.«144658_j78769700209271_1_alg».proof.Proof.Gen.Kernel.Points
import proofs.«144658_j78769700209271_1_alg».proof.Proof.Gen.Kernel.Frame
import proofs.«144658_j78769700209271_1_alg».proof.Proof.Gen.KernelIdeal
import proofs.«144658_j78769700209271_1_alg».proof.Proof.Gen.KernelIdeal.Skeleton
import proofs.«144658_j78769700209271_1_alg».proof.Proof.Gen.KernelIdeal.Launch
import proofs.«144658_j78769700209271_1_alg».proof.Proof.Gen.KernelIdeal.Points
import proofs.«144658_j78769700209271_1_alg».proof.Proof.Gen.KernelIdeal.Frame
import proofs.«144658_j78769700209271_1_alg».proof.Proof.Gen.ReferenceIdeal
import proofs.«144658_j78769700209271_1_alg».proof.Proof.Gen.ReferenceIdeal.Run
import proofs.«144658_j78769700209271_1_alg».proof.Proof.Gen.ReferenceIdeal.Read
import proofs.«144658_j78769700209271_1_alg».proof.Proof.Gen.Pre_finite_inputs
import proofs.«144658_j78769700209271_1_alg».proof.Proof.KernelRun
import proofs.«144658_j78769700209271_1_alg».proof.Proof.KernelGlue
import proofs.«144658_j78769700209271_1_alg».proof.Proof.KernelNet
import proofs.«144658_j78769700209271_1_alg».proof.Proof.RefSide
import Idealize.ShloMosaic.Adequacy
import Idealize.ShloMosaic.Init

noncomputable section

namespace Cert.Proof

open Idealize.ShloMosaic Idealize.SL.Sem

/-- Both programs gather the embedded padded sequence by the same operations: the tokens padded with two rows of
    token 0, negative ids wrapped by 32000, the table's rows gathered. -/
theorem gathered_eq (x0 : (⟨Cert.ReferenceIdeal.S1024x4, .i32⟩ : BufTy).Contents (Elt Ideal))
    (x1 : (⟨Cert.ReferenceIdeal.S32000x1024, .f32⟩ : BufTy).Contents (Elt Ideal)) :
    Cert.ReferenceIdeal.Read.val_main_v8 (F := Ideal) x0 x1 = Cert.KernelIdeal.Glue.embedded x0 x1 := by
  unfold Cert.ReferenceIdeal.Read.val_main_v8 Cert.ReferenceIdeal.Read.val_main_v7 Cert.ReferenceIdeal.Read.val_main_v6
    Cert.ReferenceIdeal.Read.val_main_v5 Cert.ReferenceIdeal.Read.val_main_v4 Cert.ReferenceIdeal.Read.val_main_v3
    Cert.ReferenceIdeal.Read.val_main_v2 Cert.ReferenceIdeal.Read.val_main_v1 Cert.ReferenceIdeal.Read.val_main_v0
    Cert.ReferenceIdeal.Read.val_main_c Cert.ReferenceIdeal.Read.val_main_c_0 Cert.ReferenceIdeal.Read.val_main_c_1
    Cert.KernelIdeal.Glue.embedded Cert.KernelIdeal.Glue.padded
  rfl

theorem frame_kernel : Cert.frame_Kernel := fun m ρ _ => Cert.Kernel.Gen.frame m ρ
theorem frame_kernel_ideal : Cert.frame_KernelIdeal := fun m ρ _ => Cert.KernelIdeal.Gen.frame m ρ
/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the six arguments both programs end with the specification's result of the gathered
    sequence and the four float arguments. -/
theorem algebraic : Cert.algebraic_KernelIdeal_ReferenceIdeal := by
  intro m ρ m' ρ' _ hagree
  refine ⟨fun c => Cert.Spec.result (Cert.KernelIdeal.Glue.embedded (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨((h c).1.trans (Cert.KernelIdeal.Glue.result_contents m ρ c)).trans
          (Cert.KernelIdeal.Net.network_eq _ _ _ _ _), (h c).2⟩)
      (Cert.KernelIdeal.Run.run_result (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v30_eq, Cert.ReferenceIdeal.Net.result_eq, gathered_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
